-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x512 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S2x512x4096 : Shape := ⟨3, ![2, 512, 4096]⟩
abbrev S512x512 : Shape := ⟨2, ![512, 512]⟩
abbrev S1x512 : Shape := ⟨2, ![1, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x512x4096 : S_.BroadcastsInDim S2x512x4096 (![] : Fin 0 → Fin S2x512x4096.rank)
  reducesTo_S2x512x4096_S_d0_1_2 : S2x512x4096.ReducesTo [0, 1, 2] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S2x4096x512 .f32) (main_arg1 : FVec F S2x512x4096 .f32) (main_arg2 : FVec F S2x4096x512 .f32) (main_arg3 : FVec F S512x512 .f32) (main_arg4 : FVec F S1x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x512x4096 .f32 := Host.absf main_arg1
  let main_cst_0 : FVec F S_ .f32 := constant S_ .f32 0x7F800000#32
  let main_v5 : FVec F S2x512x4096 .f32 := broadcastInDim S2x512x4096 ![] bcast_S_S2x512x4096 main_cst_0
  let main_v6 : IVec S2x512x4096 1 := cmpf .olt main_v4 main_v5
  let main_c_1 : IVec S_ 1 := constantI S_ 1 1#1
  let main_v7 : IVec S_ 1 := (fun x v => Host.reduce IntOp.andi x v reducesTo_S2x512x4096_S_d0_1_2 h_S_) main_v6 main_c_1
  let main_v8 : IVec S_ 1 := andi main_v3 main_v7
  let main_v9 : FVec F S2x4096x512 .f32 := Host.absf main_arg2
  let main_cst_2 : FVec F S_ .f32 := constant S_ .f32 0x7F800000#32
  let main_v10 : FVec F S2x4096x512 .f32 := broadcastInDim S2x4096x512 ![] bcast_S_S2x4096x512 main_cst_2
  let main_v11 : IVec S2x4096x512 1 := cmpf .olt main_v9 main_v10
  let main_c_3 : IVec S_ 1 := constantI S_ 1 1#1
  let main_v12 : IVec S_ 1 := (fun x v => Host.reduce IntOp.andi x v reducesTo_S2x4096x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S2x4096x512 : Shape := ⟨3, ![2, 4096, 512]⟩
abbrev S2x512x4096 : Shape := ⟨3, ![2, 512, 4096]⟩
abbrev S512x512 : Shape := ⟨2, ![512, 512]⟩
abbrev S1x512 : Shape := ⟨2, ![1, 512]⟩
abbrev S8192x512 : Shape := ⟨2, ![8192, 512]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 6
  | .vmem => 13
  | .smem => 0
  | _ => 0

abbrev bufTy : (tb : Table) → Fin (tcTables nBuf tb) → BufTy
  | .hbm, ⟨0, _⟩ => ⟨S2x4096x512, .f32⟩
  | .hbm, ⟨1, _⟩ => ⟨S2x512x4096, .f32⟩
  | .hbm, ⟨2, _⟩ => ⟨S2x4096x512, .f32⟩
  | .hbm, ⟨3, _⟩ => ⟨S512x512, .f32⟩
  | .hbm, ⟨4, _⟩ => ⟨S1x512, .f32⟩
  | .hbm, ⟨5, _⟩ => ⟨S8192x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x512, .f32⟩
  | .local _ .vmem, ⟨5, _⟩ => ⟨S1x1024x512, .f32⟩
  | .local _ .vmem, ⟨6, _⟩ => ⟨S512x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | .local _ .vmem, ⟨12, _⟩ => ⟨S1024x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_28 : BitVec 32 := 0#32
  let v55 : BitVec 1 := Scalar.cmpi .ne v54 c0_i32_28
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x4096x512.size a
  hwx0_0 : ∀ i : grid0.Coords, EltTy.bits .f32 = 32 ∨ (Rect.block (s := S2x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S2x512x4096.size a
  hwx0_1 : ∀ i : grid0.Coords, EltTy.bits .f32 = 32 ∨ (Rect.block (s := S2x512x4096) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x4096x512.size a
  hwx0_2 : ∀ i : grid0.Coords, EltTy.bits .f32 = 32 ∨ (Rect.block (s := S2x4096x512) S1x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x4096x512 : Shape := ⟨3, ![2, 4096, 512]⟩
abbrev S2x512x4096 : Shape := ⟨3, ![2, 512, 4096]⟩
abbrev S512x512 : Shape := ⟨2, ![512, 512]⟩
abbrev S1x512 : Shape := ⟨2, ![1, 512]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x512x4096, .f32⟩
  | .hbm, ⟨2, _⟩ => ⟨S2x4096x512, .f32⟩
  | .hbm, ⟨3, _⟩ => ⟨S512x512, .f32⟩
  | .hbm, ⟨4, _⟩ => ⟨S1x512, .f32⟩
  | .hbm, ⟨5, _⟩ => ⟨S2x4096x4096, .f32⟩
  | .hbm, ⟨6, _⟩ => ⟨S_, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096x1, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S2x4096x4096, .f32⟩
  | .hbm, ⟨19, _⟩ => ⟨S2x4096x4096, .f32⟩
  | .hbm, ⟨20, _⟩ => ⟨S2x4096x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  shapeCasts_S2x4096x512_S8192x512 : S2x4096x512.ShapeCasts S8192x512
  bcast_S1x512_S8192x512_0_1 : S1x512.BroadcastsInDim S8192x512 (![0, 1] : Fin 2 → Fin S8192x512.rank)
  dot_S2x4096x512_S2x512x4096_S2x4096x4096_2_1_1_2_0_0_wf : DotDims.WF S2x4096x512 S2x512x4096 S2x4096x4096 [2] [1] [1] [2] [0] [0]
  dot_S2x4096x4096_S2x4096x512_S2x4096x512_2_1_1_2_0_0_wf : DotDims.WF S2x4096x4096 S2x4096x512 S2x4096x512 [2] [1] [1] [2] [0] [0]
  dot_S8192x512_S512x512_S8192x512_1_0_0_1_n_n_wf : DotDims.WF S8192x512 S512x512 S8192x512 [1] [0] [0] [1] [] []

variable [Facts₀]

def dot_S2x4096x512_S2x512x4096_S2x4096x4096_2_1_1_2_0_0 : DotDims S2x4096x512 S2x512x4096 S2x4096x4096 where
  lhsContracting := [2]
  rhsContracting := [1]
  lhsNonContracting := [1]
  rhsNonContracting := [2]
  lhsBatch := [0]
  rhsBatch := [0]
  wf := dot_S2x4096x512_S2x512x4096_S2x4096x4096_2_1_1_2_0_0_wf
def dot_S2x4096x4096_S2x4096x512_S2x4096x512_2_1_1_2_0_0 : DotDims S2x4096x4096 S2x4096x512 S2x4096x512 where
  lhsContracting := [2]
  rhsContracting := [1]
  lhsNonContracting := [1]
  rhsNonContracting := [2]
  lhsBatch := [0]
  rhsBatch := [0]
  wf := dot_S2x4096x4096_S2x4096x512_S2x4096x512_2_1_1_2_0_0_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/-
  What the fused kernel and the reference both compute, over the reals.

  For real arrays `D1 : [2, 4096, 512]` (queries), `D2 : [2, 512, 4096]` (keys, already transposed), `D3 : [2, 4096, 512]`
  (values), `D4 : [512, 512]` and `D5 : [1, 512]`: the score of query row `s` against key `t` of batch `b` is the dot
  product over the 512 features; a row's context is the mean of the value rows weighted by `exp` of its scores
  (the softmax, written as one quotient); the output row `r = 4096 b + s` of the flattened [8192, 512] result is the
  context row times `D4`, plus the bias row `D5`.
-/
import Idealize.ShloMosaic.Lib.ValueIdx
import Idealize.ShloMosaic.PureOps.Ideal

namespace Cert.Attn

open Idealize.ShloMosaic Idealize.ShloMosaic.ValueIdx

/-- A buffer of extended reals all of whose entries are real numbers. -/
def IsReal {S : Shape} (a : S.Idx → EReal) : Prop := ∀ i, a i ≠ ⊤ ∧ a i ≠ ⊥

/-- A real entry is the coercion of its real part. -/
theorem IsReal.coe_toReal {S : Shape} {a : S.Idx → EReal} (h : IsReal a) (i : S.Idx) : a i = ((a i).toReal : EReal) :=
  (EReal.coe_toReal (h i).1 (h i).2).symm

/-- The real parts of a rank-3 buffer, by coordinates. -/
noncomputable def real3 {n0 n1 n2 : ℕ} (a : (⟨3, ![n0, n1, n2]⟩ : Shape).Idx → EReal) (p : Fin n0) (q : Fin n1) (r : Fin n2) : ℝ :=
  (a (ix3 p q r)).toReal

/-- The real parts of a rank-2 buffer, by coordinates. -/
noncomputable def real2 {n0 n1 : ℕ} (a : (⟨2, ![n0, n1]⟩ : Shape).Idx → EReal) (p : Fin n0) (q : Fin n1) : ℝ :=
  (a (ix2 p q)).toReal

theorem IsReal.eq_real3 {n0 n1 n2 : ℕ} {a : (⟨3, ![n0, n1, n2]⟩ : Shape).Idx → EReal} (h : IsReal a)
    (p : Fin n0) (q : Fin n1) (r : Fin n2) : a (ix3 p q r) = (real3 a p q r : EReal) := h.coe_toReal _

theorem IsReal.eq_real2 {n0 n1 : ℕ} {a : (⟨2, ![n0, n1]⟩ : Shape).Idx → EReal} (h : IsReal a)
    (p : Fin n0) (q : Fin n1) : a (ix2 p q) = (real2 a p q : EReal) := h.coe_toReal _

/-- The score of query row `s` against key `t` in batch `b`. -/
noncomputable def score (D1 : Fin 2 → Fin 4096 → Fin 512 → ℝ) (D2 : Fin 2 → Fin 512 → Fin 4096 → ℝ)
    (b : Fin 2) (s t : Fin 4096) : ℝ := ∑ d : Fin 512, D1 b s d * D2 b d t

/-- The softmax-weighted mean of the value rows, feature `k`. -/
noncomputable def ctx (D1 : Fin 2 → Fin 4096 → Fin 512 → ℝ) (D2 : Fin 2 → Fin 512 → Fin 4096 → ℝ)
    (D3 : Fin 2 → Fin 4096 → Fin 512 → ℝ) (b : Fin 2) (s : Fin 4096) (k : Fin 512) : ℝ :=
  (∑ t : Fin 4096, Real.exp (score D1 D2 b s t) * D3 b t k) / (∑ t : Fin 4096, Real.exp (score D1 D2 b s t))

/-- The batch of a flattened row. -/
def rowBatch (r : Fin 8192) : Fin 2 := ⟨r.val / 4096, by have := r.isLt; omega⟩
/-- The query row of a flattened row. -/
def rowSeq (r : Fin 8192) : Fin 4096 := ⟨r.val % 4096, Nat.mod_lt _ (by decide)⟩

/-- The projected output. -/
noncomputable def out (D1 : Fin 2 → Fin 4096 → Fin 512 → ℝ) (D2 : Fin 2 → Fin 512 → Fin 4096 → ℝ)
    (D3 : Fin 2 → Fin 4096 → Fin 512 → ℝ) (D4 : Fin 512 → Fin 512 → ℝ) (D5 : Fin 1 → Fin 512 → ℝ)
    (r : Fin 8192) (n : Fin 512) : ℝ :=
  (∑ k : Fin 512, ctx D1 D2 D3 (rowBatch r) (rowSeq r) k * D4 k n) + D5 0 n

/-- The projected output as a buffer of extended reals, a function of the five argument buffers. -/
noncomputable def outBuf (a0 : (⟨3, ![2, 4096, 512]⟩ : Shape).Idx → EReal) (a1 : (⟨3, ![2, 512, 4096]⟩ : Shape).Idx → EReal)
    (a2 : (⟨3, ![2, 4096, 512]⟩ : Shape).Idx → EReal) (a3 : (⟨2, ![512, 512]⟩ : Shape).Idx → EReal)
    (a4 : (⟨2, ![1, 512]⟩ : Shape).Idx → EReal) : (⟨2, ![8192, 512]⟩ : Shape).Idx → EReal :=
  fun i => ((out (real3 a0) (real3 a1) (real3 a2) (real2 a3) (real2 a4) ⟨(i 0).val, (i 0).isLt⟩ ⟨(i 1).val, (i 1).isLt⟩ : ℝ) : EReal)

theorem outBuf_apply (a0 : (⟨3, ![2, 4096, 512]⟩ : Shape).Idx → EReal) (a1 : (⟨3, ![2, 512, 4096]⟩ : Shape).Idx → EReal)
    (a2 : (⟨3, ![2, 4096, 512]⟩ : Shape).Idx → EReal) (a3 : (⟨2, ![512, 512]⟩ : Shape).Idx → EReal)
    (a4 : (⟨2, ![1, 512]⟩ : Shape).Idx → EReal) (r : Fin 8192) (n : Fin 512) :
    outBuf a0 a1 a2 a3 a4 (ix2 r n) = ((out (real3 a0) (real3 a1) (real3 a2) (real2 a3) (real2 a4) r n : ℝ) : EReal) := rfl

end Cert.Attn
-- ==== Proof.Finite.lean ====
/-
  Under the precondition every entry of the five argument buffers is a real number.

  The precondition is the conjunction of five tests "every |x| is below +infinity", one per argument buffer, each a
  reduction by `and` over all axes of the elementwise comparison of |x| = max x (-x) with the f32 pattern of +infinity,
  which denotes the top element of the extended reals. A conjunction of `i1` words is 1 exactly when each conjunct
  is; a reduction by `and` into a single cell that is 1 met a 1 at every index; and max x (-x) < ⊤ rules out
  both x = ⊤ (the maximum is then ⊤) and x = ⊥ (its negation is then ⊤).
-/
import proofs.«427413_j53420803228132_3_alg».proof.Pre_finite_inputs
import proofs.«427413_j53420803228132_3_alg».proof.Proof.Spec
import Idealize.ShloMosaic.Lib.ReduceAll
import Idealize.ShloMosaic.Lib.ValueIdx
import Idealize.ShloMosaic.PureOps.Ideal
import Idealize.ShloMosaic.PureOps.Ideal.Laws

namespace Cert.Attn

open Idealize.ShloMosaic

/-- The f32 pattern `0x7F800000` (exponent all ones, fraction zero, sign clear) denotes `⊤`. -/
theorem ofBits_posInf_f32 : Ideal.ofBits .f32 0x7F800000#32 = (⊤ : EReal) := by
  simp [Ideal.ofBits, Ideal.ieee]

/-- An extended real whose absolute value `max x (-x)` compares below `⊤` is neither infinity. -/
theorem real_of_abs_lt_top (x : EReal) (h : Ideal.cmp .olt (max x (-x)) ⊤ = 1#1) : x ≠ ⊤ ∧ x ≠ ⊥ := by
  induction x using EReal.rec with
  | bot =>
    -- max ⊥ (-⊥) = ⊤, and ⊤ < ⊤ fails
    exfalso
    rw [EReal.neg_bot, max_eq_right bot_le] at h
    simp [Ideal.cmp] at h
  | coe r => exact ⟨EReal.coe_ne_top r, EReal.coe_ne_bot r⟩
  | top =>
    -- max ⊤ (-⊤) = ⊤, and ⊤ < ⊤ fails
    exfalso
    rw [max_eq_left le_top] at h
    simp [Ideal.cmp] at h

/-- The rank-0 result shape has one index. -/
instance : Subsingleton Cert.Pre_finite_inputs.S_.Idx := ⟨fun a b => funext fun d => d.elim0⟩

/-- One `jnp.all(|x| < +inf)` that came out 1 says every entry of `x` is real. -/
theorem isReal_of_all {S : Shape} (a : FVec Ideal S .f32)
    (hb : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel)
    (e : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu ValueIdx.ix0 = 1#1) :
    IsReal (S := S) a := by
  intro i
  have hi := Host.reduce_andi_all _ _ hr hu ValueIdx.ix0 e i
  -- the comparison at index i: max (a i) (-(a i)) against the denotation of the +infinity pattern
  have hi' : Ideal.cmp .olt (max (a i) (-(a i))) (Ideal.ofBits .f32 0x7F800000#32) = 1#1 := hi
  rw [ofBits_posInf_f32] at hi'
  exact real_of_abs_lt_top (a i) hi'

theorem isReal_of_finite [Cert.Pre_finite_inputs.Facts]
    (a0 : FVec Ideal Cert.Pre_finite_inputs.S2x4096x512 .f32) (a1 : FVec Ideal Cert.Pre_finite_inputs.S2x512x4096 .f32)
    (a2 : FVec Ideal Cert.Pre_finite_inputs.S2x4096x512 .f32) (a3 : FVec Ideal Cert.Pre_finite_inputs.S512x512 .f32)
    (a4 : FVec Ideal Cert.Pre_finite_inputs.S1x512 .f32)
    (h : Cert.Pre_finite_inputs.fn (F := Ideal) a0 a1 a2 a3 a4 = (fun _ => 1#1)) :
    IsReal a0 ∧ IsReal a1 ∧ IsReal a2 ∧ IsReal a3 ∧ IsReal a4 := by
  have e := congrFun h ValueIdx.ix0
  dsimp only [Cert.Pre_finite_inputs.fn, Cert.Pre_finite_inputs.fn_part1] at e
  -- the result cell is ((((t0 ∧ t1) ∧ t2) ∧ t3) ∧ t4)
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨isReal_of_all a0 _ _ _ e0, isReal_of_all a1 _ _ _ e1, isReal_of_all a2 _ _ _ e2,
    isReal_of_all a3 _ _ _ e3, isReal_of_all a4 _ _ _ e4⟩

end Cert.Attn
-- ==== Proof.Steps.lean ====
/-
  One tile of the online softmax as the kernel's body computes it, at any float instance: from the query block `x0`,
  the key block `x1`, the value block `x2` and the running maximum `m`, sum `l` and accumulator `acc`, the new
  maximum, sum and accumulator; and, after the last tile, the projected output block from `l`, `acc`, the
  projection matrix `x3` and the bias row `x4`. Each is the composition of the body's named pure terms.
-/
import proofs.«427413_j53420803228132_3_alg».proof.Proof.Gen.KernelIdeal.Skeleton

noncomputable section

namespace Cert.KernelIdeal.Tile

open Cert.KernelIdeal Cert.KernelIdeal.Gen Idealize.ShloMosaic

variable {F : FTy → Type} [FloatOps F]

/-- The block of scores of the tile. -/
def scores (x0 : Vec F S1x1024x512 .f32) (x1 : Vec F S1x512x1024 .f32) : FVec F S1024x1024 .f32 := k0_pay9 x0 x1

/-- The running maximum after the tile. -/
def stepM (x0 : Vec F S1x1024x512 .f32) (x1 : Vec F S1x512x1024 .f32) (m : Vec F S1024x1 .f32) : FVec F S1024x1 .f32 :=
  k0_pay3 (k0_pay10 x0 x1 m)

/-- The running sum of weights after the tile. -/
def stepL (x0 : Vec F S1x1024x512 .f32) (x1 : Vec F S1x512x1024 .f32) (m l : Vec F S1024x1 .f32) : FVec F S1024x1 .f32 :=
  k0_pay1 (k0_pay12 x0 x1 m) (k0_pay13 x0 x1 m m l)

/-- The running weighted sum of the value rows after the tile. -/
def stepAcc (x0 : Vec F S1x1024x512 .f32) (x1 : Vec F S1x512x1024 .f32) (x2 : Vec F S1x1024x512 .f32)
    (m : Vec F S1024x1 .f32) (acc : Vec F S1024x512 .f32) : FVec F S1024x512 .f32 :=
  k0_pay2 (k0_pay8 x2) (k0_pay11 x0 x1 m m) (k0_pay12 x0 x1 m) acc

/-- The projected output block: the accumulator over the sum, times the projection, plus the bias row. -/
def outBlk (x3 : Vec F S512x512 .f32) (x4 : Vec F S1x512 .f32) (l : Vec F S1024x1 .f32) (acc : Vec F S1024x512 .f32) :
    FVec F S1024x512 .f32 := k0_pay4 acc l x3 x4

/-- The reset values: maximum at minus infinity, sum and accumulator at zero. -/
abbrev m0 : FVec F S1024x1 .f32 := k0_pay5
abbrev l0 : FVec F S1024x1 .f32 := k0_pay6
abbrev acc0 : FVec F S1024x512 .f32 := k0_pay7

end Cert.KernelIdeal.Tile

end
-- ==== Proof.Pieces.lean ====
/-
  What each case of the body leaves in the three carried scratch buffers and in the output block, as the tile
  functions of `Steps.lean` applied to the point's input blocks and to what the point before left:
  at a row's first tile from the reset values, afterwards from the carried ones; at a row's last tile the output block
  is the projection of the accumulator over the sum, both as the tile has just updated them.
-/
import proofs.«427413_j53420803228132_3_alg».proof.Proof.Gen.KernelIdeal.Frame
import proofs.«427413_j53420803228132_3_alg».proof.Proof.Steps
import Idealize.ShloMosaic.Lib.Pipeline.Value
import Idealize.ShloMosaic.Lib.Tactic

set_option pp.maxSteps 20000
set_option pp.deepTerms false

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's first tile leaves the new maximum taken from the reset value. -/
theorem sout_A_0 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1x1024x512 .f32) (x1 : Vec F S1x512x1024 .f32) (x2 : Vec F S1x1024x512 .f32) (x3 : Vec F S512x512 .f32) (x4 : Vec F S1x512 .f32) :
    sout0_A_0 c i arg3 harg3 arg4 harg4 arg5 harg5 arg6 harg6 arg7 harg7 arg8 harg8 arg9 harg9 arg10 harg10 arg11 harg11 hc0 hc1 x0 x1 x2 x3 x4 = stepM x0 x1 (m0 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2, View.readCov_unit_zero (S := S1024x1) _ hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A row block's first tile leaves the new sum taken from the reset values. -/
theorem sout_A_1 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1x1024x512 .f32) (x1 : Vec F S1x512x1024 .f32) (x2 : Vec F S1x1024x512 .f32) (x3 : Vec F S512x512 .f32) (x4 : Vec F S1x512 .f32) :
    sout0_A_1 c i arg3 harg3 arg4 harg4 arg5 harg5 arg6 harg6 arg7 harg7 arg8 harg8 arg9 harg9 arg10 harg10 arg11 harg11 hc0 hc1 x0 x1 x2 x3 x4 = stepL x0 x1 (m0 (F := F)) (l0 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2, View.readCov_unit_zero (S := S1024x1) _ hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A row block's first tile leaves the new accumulator taken from the reset values. -/
theorem sout_A_2 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1x1024x512 .f32) (x1 : Vec F S1x512x1024 .f32) (x2 : Vec F S1x1024x512 .f32) (x3 : Vec F S512x512 .f32) (x4 : Vec F S1x512 .f32) :
    sout0_A_2 c i arg3 harg3 arg4 harg4 arg5 harg5 arg6 harg6 arg7 harg7 arg8 harg8 arg9 harg9 arg10 harg10 arg11 harg11 hc0 hc1 x0 x1 x2 x3 x4 = stepAcc x0 x1 x2 (m0 (F := F)) (acc0 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x512) hz2, View.readCov_unit_zero (S := S1024x512) _ hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new maximum over the carried one. -/
theorem sout_B_0 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_B_0 c i arg3 harg3 arg4 harg4 arg5 harg5 arg6 harg6 arg7 harg7 arg8 harg8 arg9 harg9 arg10 harg10 arg11 harg11 hc0 hc1 x0 x1 x2 x3 x4 xs0 xs1 xs2 = stepM x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new sum over the carried maximum and sum. -/
theorem sout_B_1 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_B_1 c i arg3 harg3 arg4 harg4 arg5 harg5 arg6 harg6 arg7 harg7 arg8 harg8 arg9 harg9 arg10 harg10 arg11 harg11 hc0 hc1 x0 x1 x2 x3 x4 xs0 xs1 xs2 = stepL x0 x1 xs0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new accumulator over the carried maximum and accumulator. -/
theorem sout_B_2 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_B_2 c i arg3 harg3 arg4 harg4 arg5 harg5 arg6 harg6 arg7 harg7 arg8 harg8 arg9 harg9 arg10 harg10 arg11 harg11 hc0 hc1 x0 x1 x2 x3 x4 xs0 xs1 xs2 = stepAcc x0 x1 x2 xs0 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new maximum over the carried one. -/
theorem sout_C_0 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_C_0 c i arg3 harg3 arg4 harg4 arg5 harg5 arg6 harg6 arg7 harg7 arg8 harg8 arg9 harg9 arg10 harg10 arg11 harg11 hc0 hc1 x0 x1 x2 x3 x4 xs0 xs1 xs2 = stepM x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new sum over the carried maximum and sum. -/
theorem sout_C_1 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_C_1 c i arg3 harg3 arg4 harg4 arg5 harg5 arg6 harg6 arg7 harg7 arg8 harg8 arg9 harg9 arg10 harg10 arg11 harg11 hc0 hc1 x0 x1 x2 x3 x4 xs0 xs1 xs2 = stepL x0 x1 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A later tile leaves the new accumulator over the carried maximum and accumulator. -/
theorem sout_C_2 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    sout0_C_2 c i arg3 harg3 arg4 harg4 arg5 harg5 arg6 harg6 arg7 harg7 arg8 harg8 arg9 harg9 arg10 harg10 arg11 harg11 hc0 hc1 x0 x1 x2 x3 x4 xs0 xs1 xs2 = stepAcc x0 x1 x2 xs0 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

/-- A row block's last tile leaves in the output block the projection of the accumulator over the sum, both as this tile has just updated them. -/
theorem out_C_5 (c : Dev nD) (i : grid0.Coords) (arg3 : Memref sig .tc .vmem S1x1024x512 .f32) (harg3 : arg3.IsWhole) (arg4 : Memref sig .tc .vmem S1x512x1024 .f32) (harg4 : arg4.IsWhole) (arg5 : Memref sig .tc .vmem S1x1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1x1024x512 .f32) (x1 : Vec F S1x512x1024 .f32) (x2 : Vec F S1x1024x512 .f32) (x3 : Vec F S512x512 .f32) (x4 : Vec F S1x512 .f32) (xs0 : Vec F S1024x1 .f32) (xs1 : Vec F S1024x1 .f32) (xs2 : Vec F S1024x512 .f32) :
    out0_C_5 c i arg3 harg3 arg4 harg4 arg5 harg5 arg6 harg6 arg7 harg7 arg8 harg8 arg9 harg9 arg10 harg10 arg11 harg11 hc0 hc1 x0 x1 x2 x3 x4 xs0 xs1 xs2 = outBlk x3 x4 (stepL x0 x1 xs0 xs1) (stepAcc x0 x1 x2 xs0 xs2) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [stepM, stepL, stepAcc, outBlk, View.readAt_eq_ld, harg3.read_unread, harg4.read_unread, harg5.read_unread, harg6.read_unread,
    harg7.read_unread, harg9.read_unread, harg10.read_unread, harg11.read_unread,
    View.ld_unit_zero (S := S1x1024x512) hz3, View.ld_unit_zero (S := S1x512x1024) hz3, View.ld_unit_zero (S := S1024x1) hz2,
    View.ld_unit_zero (S := S1024x512) hz2, View.ld_unit_zero (S := S512x512) hz2, View.ld_unit_zero (S := S1x512) hz2,
    View.readCov_unit_zero (S := S1024x1) _ hz2, View.readCov_unit_zero (S := S1024x512) _ hz2]

end Cert.KernelIdeal.Tile

end
-- ==== Proof.BlockRead.lean ====
/-
  Where a window's block sits in its array. The grid has 2 x 4 x 4 points in row-major order: point `n` is batch
  `n / 16`, query block `n / 4 % 4`, key block `n % 4`. The query block read at `n` is rows
  `1024 (n / 4 % 4) ..` of batch `n / 16`; the key block is columns `1024 (n % 4) ..` of the transposed keys; the value
  block is rows `1024 (n % 4) ..` of the values; the projection matrix and the bias row are read whole; the output
  block written at `n` is rows `1024 (n / 4) ..` of the flattened result.
-/
import proofs.«427413_j53420803228132_3_alg».proof.Proof.Gen.KernelIdeal.Frame.Runs
import proofs.«427413_j53420803228132_3_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The batch of point `n`. -/
def ptB (n : ℕ) : Fin 2 := ⟨n / 16 % 2, Nat.mod_lt _ (by decide)⟩
/-- The query row of row `r` of point `n`'s query block. -/
def ptRow (n : ℕ) (r : Fin 1024) : Fin 4096 := ⟨n / 4 % 4 * 1024 + r.val, by have := r.isLt; have := Nat.mod_lt (n / 4) (by decide : 0 < 4); omega⟩
/-- The key of column `u` of point `n`'s key block. -/
def ptKey (n : ℕ) (u : Fin 1024) : Fin 4096 := ⟨n % 4 * 1024 + u.val, by have := u.isLt; have := Nat.mod_lt n (by decide : 0 < 4); omega⟩

/-- The input blocks at a point, at their literal types. -/
abbrev blkQ (c : Dev nD) (t : Fin cfg0.N) : Vec F S1x1024x512 .f32 := iblk m c 0 t
abbrev blkK (c : Dev nD) (t : Fin cfg0.N) : Vec F S1x512x1024 .f32 := iblk m c 1 t
abbrev blkV (c : Dev nD) (t : Fin cfg0.N) : Vec F S1x1024x512 .f32 := iblk m c 2 t
abbrev blkP (c : Dev nD) (t : Fin cfg0.N) : Vec F S512x512 .f32 := iblk m c 3 t
abbrev blkB (c : Dev nD) (t : Fin cfg0.N) : Vec F S1x512 .f32 := iblk m c 4 t

/-- The printed index maps at every point, decided over the grid. -/
theorem idx_facts : ∀ t : Fin cfg0.N,
    (win0_0.index t (0 : Fin 3) = t.val / 16 ∧ win0_0.index t (1 : Fin 3) = t.val / 4 % 4 ∧ win0_0.index t (2 : Fin 3) = 0)
    ∧ (win0_1.index t (0 : Fin 3) = t.val / 16 ∧ win0_1.index t (1 : Fin 3) = 0 ∧ win0_1.index t (2 : Fin 3) = t.val % 4)
    ∧ (win0_2.index t (0 : Fin 3) = t.val / 16 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val / 4 ∧ win0_5.index t (1 : Fin 2) = 0) :=
  (by decide +kernel : ∀ t : Fin grid0.N, _)

theorem lt32 (t : Fin cfg0.N) : t.val < 32 := lt_of_lt_of_eq t.isLt (show cfg0.N = 32 from N_0)

/-- The query block. -/
theorem blkQ_apply (c : Dev nD) (t : Fin cfg0.N) (r : Fin 1024) (d : Fin 512) :
    blkQ m c t (ix3 (0 : Fin 1) r d) = m ((c : Thread nD τ).loc main_arg0) (ix3 (ptB t.val) (ptRow t.val r) d) := by
  obtain ⟨⟨e0, e1, e2⟩, -⟩ := idx_facts t
  have hN := lt32 t
  show V m c main_arg0 (((cfg0.win 0).blk t).view.emb (ix3 (0 : Fin 1) r d)) = _
  refine congrArg (m ((c : Thread nD τ).loc main_arg0)) (funext fun a => Fin.ext ?_)
  match a with
  | ⟨0, _⟩ => show win0_0.index t (0 : Fin 3) * 1 + 1 * 0 = t.val / 16 % 2; omega
  | ⟨1, _⟩ => show win0_0.index t (1 : Fin 3) * 1024 + 1 * r.val = t.val / 4 % 4 * 1024 + r.val; omega
  | ⟨2, _⟩ => show win0_0.index t (2 : Fin 3) * 512 + 1 * d.val = d.val; omega

/-- The key block. -/
theorem blkK_apply (c : Dev nD) (t : Fin cfg0.N) (d : Fin 512) (u : Fin 1024) :
    blkK m c t (ix3 (0 : Fin 1) d u) = m ((c : Thread nD τ).loc main_arg1) (ix3 (ptB t.val) d (ptKey t.val u)) := by
  obtain ⟨-, ⟨e0, e1, e2⟩, -⟩ := idx_facts t
  have hN := lt32 t
  show V m c main_arg1 (((cfg0.win 1).blk t).view.emb (ix3 (0 : Fin 1) d u)) = _
  refine congrArg (m ((c : Thread nD τ).loc main_arg1)) (funext fun a => Fin.ext ?_)
  match a with
  | ⟨0, _⟩ => show win0_1.index t (0 : Fin 3) * 1 + 1 * 0 = t.val / 16 % 2; omega
  | ⟨1, _⟩ => show win0_1.index t (1 : Fin 3) * 512 + 1 * d.val = d.val; omega
  | ⟨2, _⟩ => show win0_1.index t (2 : Fin 3) * 1024 + 1 * u.val = t.val % 4 * 1024 + u.val; omega

/-- The value block. -/
theorem blkV_apply (c : Dev nD) (t : Fin cfg0.N) (u : Fin 1024) (k : Fin 512) :
    blkV m c t (ix3 (0 : Fin 1) u k) = m ((c : Thread nD τ).loc main_arg2) (ix3 (ptB t.val) (ptKey t.val u) k) := by
  obtain ⟨-, -, ⟨e0, e1, e2⟩, -⟩ := idx_facts t
  have hN := lt32 t
  show V m c main_arg2 (((cfg0.win 2).blk t).view.emb (ix3 (0 : Fin 1) u k)) = _
  refine congrArg (m ((c : Thread nD τ).loc main_arg2)) (funext fun a => Fin.ext ?_)
  match a with
  | ⟨0, _⟩ => show win0_2.index t (0 : Fin 3) * 1 + 1 * 0 = t.val / 16 % 2; omega
  | ⟨1, _⟩ => show win0_2.index t (1 : Fin 3) * 1024 + 1 * u.val = t.val % 4 * 1024 + u.val; omega
  | ⟨2, _⟩ => show win0_2.index t (2 : Fin 3) * 512 + 1 * k.val = k.val; omega

/-- The projection matrix, whole. -/
theorem blkP_apply (c : Dev nD) (t : Fin cfg0.N) (k j : Fin 512) :
    blkP m c t (ix2 k j) = m ((c : Thread nD τ).loc main_arg3) (ix2 k j) := by
  obtain ⟨-, -, -, ⟨e0, e1⟩, -⟩ := idx_facts t
  show V m c main_arg3 (((cfg0.win 3).blk t).view.emb (ix2 k j)) = _
  refine congrArg (m ((c : Thread nD τ).loc main_arg3)) (funext fun a => Fin.ext ?_)
  match a with
  | ⟨0, _⟩ => show win0_3.index t (0 : Fin 2) * 512 + 1 * k.val = k.val; omega
  | ⟨1, _⟩ => show win0_3.index t (1 : Fin 2) * 512 + 1 * j.val = j.val; omega

/-- The bias row, whole. -/
theorem blkB_apply (c : Dev nD) (t : Fin cfg0.N) (j : Fin 512) :
    blkB m c t (ix2 (0 : Fin 1) j) = m ((c : Thread nD τ).loc main_arg4) (ix2 (0 : Fin 1) j) := by
  obtain ⟨-, -, -, -, ⟨e0, e1⟩, -⟩ := idx_facts t
  show V m c main_arg4 (((cfg0.win 4).blk t).view.emb (ix2 (0 : Fin 1) j)) = _
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 512 + 1 * j.val = j.val; omega

end Cert.KernelIdeal.Blocks

end
-- ==== Proof.RowState.lean ====
/-
  The state of the online softmax on a block of 1024 query rows after the first `cnt` keys, with every entry real.

  For each row `r` there is SOME real reference point `M` — the kernel keeps the running maximum, but nothing here needs
  it to be one — such that the carried maximum is `M`, the carried sum is `∑ exp (S r u - M)` over the keys `u < cnt`, and
  the carried accumulator at feature `k` is `∑ exp (S r u - M) * W u k`, where `S r u` is the row's score against key `u`
  and `W u k` the value row of key `u`.
-/
import Idealize.ShloMosaic.Lib.ValueIdx
import Idealize.ShloMosaic.PureOps.Ideal

namespace Cert.Attn

open Idealize.ShloMosaic Idealize.ShloMosaic.ValueIdx

/-- The online-softmax state of a block of 1024 rows after `cnt` keys. -/
def RowState (m l : (⟨2, ![1024, 1]⟩ : Shape).Idx → EReal) (acc : (⟨2, ![1024, 512]⟩ : Shape).Idx → EReal)
    (S : Fin 1024 → ℕ → ℝ) (W : ℕ → Fin 512 → ℝ) (cnt : ℕ) : Prop :=
  ∀ r : Fin 1024, ∃ M : ℝ, m (ix2 r (0 : Fin 1)) = (M : EReal)
    ∧ l (ix2 r (0 : Fin 1)) = ((∑ u ∈ Finset.range cnt, Real.exp (S r u - M) : ℝ) : EReal)
    ∧ ∀ k : Fin 512, acc (ix2 r k) = ((∑ u ∈ Finset.range cnt, Real.exp (S r u - M) * W u k : ℝ) : EReal)

end Cert.Attn
-- ==== Proof.OnlineSoftmax.lean ====
/-
  The arithmetic of the online softmax on one row, over the reals, and how it reads on the extended reals
  when every entry is a real number.

  A row of scores arrives tile by tile. After a tile the kernel keeps a running maximum `m`, the sum
  `l = ∑ exp (s u - m)` and the weighted sums `acc = ∑ exp (s u - m) * v u` over the scores seen so far; the next
  tile rescales both by `exp (m - m')`. Nothing below needs `m` to be the maximum: with ANY real `m` the quotient
  `acc / l` is the softmax-weighted mean, because the common factor `exp (-m)` cancels.
-/
import Idealize.ShloMosaic.PureOps.Ideal
import Idealize.ShloMosaic.PureOps.Ideal.Laws

namespace Cert.OnlineSoftmax

open Idealize.ShloMosaic

/-- The coercion to the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern of minus infinity is the bottom of the extended reals. -/
theorem ofBits_neg_inf : Ideal.ofBits .f32 0xFF800000#32 = ⊥ := by simp [Ideal.ofBits, Ideal.ieee]

/-- A fold of `max` from `⊥` over real entries is `⊥` on the empty set and a real number otherwise. -/
theorem fold_max_bot_or_real {ι : Type*} (s : Finset ι) (f : ι → ℝ) :
    (s = ∅ ∧ s.fold max (⊥ : EReal) (fun i => (f i : EReal)) = ⊥) ∨
      ∃ M : ℝ, s.fold max (⊥ : EReal) (fun i => (f i : EReal)) = (M : EReal) := by
  classical
  induction s using Finset.induction_on with
  | empty => exact Or.inl ⟨rfl, Finset.fold_empty⟩
  | insert a s ha ih =>
    right
    rw [Finset.fold_insert ha]
    rcases ih with ⟨_, h⟩ | ⟨M, h⟩
    · exact ⟨f a, by rw [h]; exact max_bot_right _⟩
    · exact ⟨max (f a) M, by rw [h]; exact (EReal.coe_strictMono.monotone.map_max).symm⟩

/-- The maximum of a nonempty row of real numbers, taken from `⊥`, is a real number. -/
theorem fold_max_real {K : ℕ} (hK : 0 < K) (f : Fin K → ℝ) :
    ∃ M : ℝ, (Finset.univ : Finset (Fin K)).fold max (⊥ : EReal) (fun i => (f i : EReal)) = (M : EReal) := by
  rcases fold_max_bot_or_real Finset.univ f with ⟨h, _⟩ | h
  · exact absurd h (Finset.univ_nonempty_iff.mpr ⟨⟨0, hK⟩⟩).ne_empty
  · exact h

/-- `exp (s - m)` of real numbers, on the extended reals. -/
theorem exp_sub_coe (s m : ℝ) : Ideal.exp ((s : EReal) - (m : EReal)) = ((Real.exp (s - m) : ℝ) : EReal) := by
  rw [← EReal.coe_sub, Ideal.exp_coe]

/-- From the initial maximum `⊥` the rescaling factor is `exp ⊥ = 0`. -/
theorem exp_bot_sub_coe (m : ℝ) : Ideal.exp ((⊥ : EReal) - (m : EReal)) = 0 := by
  rw [EReal.bot_sub, Ideal.exp_bot]

/-- A tile's sum of weights is a real number. -/
theorem sum_exp_coe {K : ℕ} (s : Fin K → ℝ) (m : ℝ) :
    ∑ t : Fin K, Ideal.exp ((s t : EReal) - (m : EReal)) = ((∑ t : Fin K, Real.exp (s t - m) : ℝ) : EReal) := by
  rw [coe_sum]
  exact Finset.sum_congr rfl fun t _ => exp_sub_coe _ _

/-- A tile's weighted sum of values is a real number. -/
theorem sum_exp_mul_coe {K : ℕ} (s v : Fin K → ℝ) (m : ℝ) :
    ∑ t : Fin K, Ideal.exp ((s t : EReal) - (m : EReal)) * (v t : EReal)
      = ((∑ t : Fin K, Real.exp (s t - m) * v t : ℝ) : EReal) := by
  rw [coe_sum]
  exact Finset.sum_congr rfl fun t _ => by rw [exp_sub_coe, ← EReal.coe_mul]

/-- The first tile: the accumulator starts at `0` under the maximum `⊥`, so only the tile's own sum remains. -/
theorem first_step (m' x : ℝ) :
    Ideal.exp ((⊥ : EReal) - (m' : EReal)) * 0 + (x : EReal) = (x : EReal) := by
  rw [mul_zero, zero_add]

/-- A later tile: the old accumulator `a` is rescaled by `exp (m - m')` and the tile's sum `x` added. -/
theorem next_step (m m' a x : ℝ) :
    Ideal.exp ((m : EReal) - (m' : EReal)) * (a : EReal) + (x : EReal)
      = ((Real.exp (m - m') * a + x : ℝ) : EReal) := by
  rw [exp_sub_coe, ← EReal.coe_mul, ← EReal.coe_add]

/-- Rescaling the weights seen so far from the old maximum to the new one. -/
theorem rescale {ι : Type*} (u : Finset ι) (S w : ι → ℝ) (m m' : ℝ) :
    Real.exp (m - m') * ∑ i ∈ u, Real.exp (S i - m) * w i = ∑ i ∈ u, Real.exp (S i - m') * w i := by
  rw [Finset.mul_sum]
  refine Finset.sum_congr rfl fun i _ => ?_
  rw [← mul_assoc, ← Real.exp_add]
  congr 2
  ring

/-- The same without values. -/
theorem rescale_one {ι : Type*} (u : Finset ι) (S : ι → ℝ) (m m' : ℝ) :
    Real.exp (m - m') * ∑ i ∈ u, Real.exp (S i - m) = ∑ i ∈ u, Real.exp (S i - m') := by
  have h := rescale u S (fun _ => 1) m m'
  simpa using h

/-- The sum of weights over a nonempty set is positive. -/
theorem sum_exp_pos {ι : Type*} (u : Finset ι) (hu : u.Nonempty) (S : ι → ℝ) (m : ℝ) :
    0 < ∑ i ∈ u, Real.exp (S i - m) :=
  Finset.sum_pos (fun _ _ => Real.exp_pos _) hu

/-- THE LAW: the accumulated quotient under any reference point `m` is the softmax-weighted mean, the weights
    normalised under any other reference point `m'`. -/
theorem quotient_eq {ι : Type*} (u : Finset ι) (S w : ι → ℝ) (m m' : ℝ) :
    (∑ i ∈ u, Real.exp (S i - m) * w i) / (∑ i ∈ u, Real.exp (S i - m))
      = ∑ i ∈ u, Real.exp (S i - m') / (∑ j ∈ u, Real.exp (S j - m')) * w i := by
  rw [← rescale u S w m' m, ← rescale_one u S m' m, mul_div_mul_left _ _ (Real.exp_pos _).ne', Finset.sum_div]
  refine Finset.sum_congr rfl fun i _ => ?_
  rw [div_mul_eq_mul_div]

/-- Division of real numbers on the extended reals, the divisor not zero. -/
theorem div_coe_coe (a b : ℝ) (hb : b ≠ 0) : Ideal.div (a : EReal) (b : EReal) = ((a / b : ℝ) : EReal) := by
  rw [Ideal.div_coe hb, ← EReal.coe_mul, mul_one_div]

/-- Splitting off the next tile of a sum over an initial segment of the naturals. -/
theorem sum_range_tile (f : ℕ → ℝ) (a K : ℕ) :
    ∑ u ∈ Finset.range (a + K), f u = ∑ u ∈ Finset.range a, f u + ∑ t : Fin K, f (a + t.val) := by
  rw [Finset.sum_range_add]
  exact congrArg _ (Finset.sum_range fun x => f (a + x))

end Cert.OnlineSoftmax
-- ==== Proof.TileIndex.lean ====
/-
  The tile functions of the kernel's body read at an index, at the extended reals.

  Each tile function is a composition of the body's pure terms: layout operations (a leading unit axis dropped, a
  vector written as a column, a column or a row broadcast over a block), reductions along the rows of the block of
  scores, products on the matrix unit into the zero block, and pointwise arithmetic. At the extended reals a format
  change is the identity and the pointwise operations are the extended reals' own; a reduction is a sum or a fold of
  `max` over the 1024 columns and a product is a sum over the contracted axis. The theorems below read every tile
  function at an index given by its coordinates as such a closed expression of the blocks' entries.
-/
import proofs.«427413_j53420803228132_3_alg».proof.Proof.Steps
import proofs.«427413_j53420803228132_3_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

namespace Cert.KernelIdeal.Tile

open Cert.KernelIdeal Cert.KernelIdeal.Gen Idealize.ShloMosaic Idealize.ShloMosaic.ValueIdx
open scoped BigOperators

/-! ## Layout operations at an index -/

section Layout
variable {α : Type}

/-- A vector `[a]` written as a column `[a, 1]` reads, at `(i, u)`, the vector at `i`: the row-major position of
    `(i, u)` in the column is `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two reductions along a row of the block of scores -/

/-- The sum along the columns of a `1024 × 1024` block, from the zero word, is at row `r` the sum of the row's entries. -/
theorem rowSum_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ t : Fin 1024, src (ix2 r t) := by
  refine (Ideal.multiReduction_add_single src _ h hφ hacc (ix1 r)).trans ?_
  refine Finset.sum_congr rfl fun t _ => congrArg src (funext fun c => Fin.ext ?_)
  match c with
  | ⟨0, _⟩ => rfl
  | ⟨1, _⟩ => rfl

/-- The maximum along the columns of a `1024 × 1024` block, from the word of minus infinity, is at row `r` the fold of
    `max` from `⊥` over the row's entries. -/
theorem rowMax_apply (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = (Finset.univ : Finset (Fin 1024)).fold max (⊥ : EReal) (fun t => src (ix2 r t)) := by
  refine (Ideal.multiReduction_maximumf_single src _ h hφ hacc (ix1 r)).trans ?_
  have hb : (FloatOps.ofBits (F := Ideal) .f32 0xFF800000#32 : EReal) = ⊥ := Cert.OnlineSoftmax.ofBits_neg_inf
  have hf : (src ∘ h.lift (ix1 r)) = fun t : Fin 1024 => src (ix2 r t) :=
    funext fun t => congrArg src (funext fun c => Fin.ext (by
      match c with
      | ⟨0, _⟩ => rfl
      | ⟨1, _⟩ => rfl))
  rw [hb, hf]
  rfl

/-! ## The three products on the matrix unit at an index

Each contracts the left operand's axis 1 with the right operand's axis 0 and has no batch axis, so at `(p, c)` the
left operand is read at `(p, d)` and the right one at `(d, c)`, `d` the contracted coordinate. For each of the three
dimension records: the four coordinates of the operands' indices, then the product into the zero block as the sum over
`d`, re-indexed from the one-axis contraction index to its coordinate. -/

/-! ### Queries `[1024, 512]` times keys `[512, 1024]` -/

theorem lhs_qk_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_qk_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_qk_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_qk_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Into the zero block, at `(p, c)`: the sum over the 512 features of the query row `p` times the key column `c`. -/
theorem matmul_qk_apply {φ₁ φ₂ : FTy} (prec : Option ContractPrecision) (lhs : FVec Ideal S1024x512 φ₁)
    (rhs : FVec Ideal S512x1024 φ₂) (p : Fin 1024) (c : Fin 1024) :
    matmul dot_S1024x512_S512x1024_S1024x1024_1_0_0_1_n_n prec lhs rhs (constant (F := Ideal) S1024x1024 .f32 0x00000000#32) (ix2 p c)
      = ∑ d : Fin 512, lhs (ix2 p d) * rhs (ix2 d c) := by
  refine (Ideal.matmul_constant_zero_apply dot_S1024x512_S512x1024_S1024x1024_1_0_0_1_n_n prec lhs rhs (ix2 p c)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p c)
      ((contrEquiv1 dot_S1024x512_S512x1024_S1024x1024_1_0_0_1_n_n 512 rfl rfl).symm k) = ix2 p k :=
    funext fun a => Fin.ext (by
      match a with
      | ⟨0, _⟩ => exact lhs_qk_0 _ _
      | ⟨1, _⟩ => exact (lhs_qk_1 _ _).trans hk)
  have er : dot_S1024x512_S512x1024_S1024x1024_1_0_0_1_n_n.rhsIdx (ix2 p c)
      ((contrEquiv1 dot_S1024x512_S512x1024_S1024x1024_1_0_0_1_n_n 512 rfl rfl).symm k) = ix2 k c :=
    funext fun a => Fin.ext (by
      match a with
      | ⟨0, _⟩ => exact (rhs_qk_0 _ _).trans hk
      | ⟨1, _⟩ => exact rhs_qk_1 _ _)
  rw [el, er]

/-! ### Weights `[1024, 1024]` times values `[1024, 512]` -/

theorem lhs_pv_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem lhs_pv_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_pv_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_pv_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- Into the zero block, at `(p, c)`: the sum over the tile's 1024 keys of the weight at `(p, d)` times the value row
    `d` at feature `c`. -/
theorem matmul_pv_apply {φ₁ φ₂ : FTy} (prec : Option ContractPrecision) (lhs : FVec Ideal S1024x1024 φ₁)
    (rhs : FVec Ideal S1024x512 φ₂) (p : Fin 1024) (c : Fin 512) :
    matmul dot_S1024x1024_S1024x512_S1024x512_1_0_0_1_n_n prec lhs rhs (constant (F := Ideal) S1024x512 .f32 0x00000000#32) (ix2 p c)
      = ∑ d : Fin 1024, lhs (ix2 p d) * rhs (ix2 d c) := by
  refine (Ideal.matmul_constant_zero_apply dot_S1024x1024_S1024x512_S1024x512_1_0_0_1_n_n prec lhs rhs (ix2 p c)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p c)
      ((contrEquiv1 dot_S1024x1024_S1024x512_S1024x512_1_0_0_1_n_n 1024 rfl rfl).symm k) = ix2 p k :=
    funext fun a => Fin.ext (by
      match a with
      | ⟨0, _⟩ => exact lhs_pv_0 _ _
      | ⟨1, _⟩ => exact (lhs_pv_1 _ _).trans hk)
  have er : dot_S1024x1024_S1024x512_S1024x512_1_0_0_1_n_n.rhsIdx (ix2 p c)
      ((contrEquiv1 dot_S1024x1024_S1024x512_S1024x512_1_0_0_1_n_n 1024 rfl rfl).symm k) = ix2 k c :=
    funext fun a => Fin.ext (by
      match a with
      | ⟨0, _⟩ => exact (rhs_pv_0 _ _).trans hk
      | ⟨1, _⟩ => exact rhs_pv_1 _ _)
  rw [el, er]

/-! ### Normalised rows `[1024, 512]` times the projection `[512, 512]` -/

theorem lhs_proj_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem lhs_proj_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_proj_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_proj_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Into the zero block, at `(p, c)`: the sum over the 512 features of the normalised row `p` times the projection's
    column `c`. -/
theorem matmul_proj_apply {φ₁ φ₂ : FTy} (prec : Option ContractPrecision) (lhs : FVec Ideal S1024x512 φ₁)
    (rhs : FVec Ideal S512x512 φ₂) (p : Fin 1024) (c : Fin 512) :
    matmul dot_S1024x512_S512x512_S1024x512_1_0_0_1_n_n prec lhs rhs (constant (F := Ideal) S1024x512 .f32 0x00000000#32) (ix2 p c)
      = ∑ d : Fin 512, lhs (ix2 p d) * rhs (ix2 d c) := by
  refine (Ideal.matmul_constant_zero_apply dot_S1024x512_S512x512_S1024x512_1_0_0_1_n_n prec lhs rhs (ix2 p c)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p c)
      ((contrEquiv1 dot_S1024x512_S512x512_S1024x512_1_0_0_1_n_n 512 rfl rfl).symm k) = ix2 p k :=
    funext fun a => Fin.ext (by
      match a with
      | ⟨0, _⟩ => exact lhs_proj_0 _ _
      | ⟨1, _⟩ => exact (lhs_proj_1 _ _).trans hk)
  have er : dot_S1024x512_S512x512_S1024x512_1_0_0_1_n_n.rhsIdx (ix2 p c)
      ((contrEquiv1 dot_S1024x512_S512x512_S1024x512_1_0_0_1_n_n 512 rfl rfl).symm k) = ix2 k c :=
    funext fun a => Fin.ext (by
      match a with
      | ⟨0, _⟩ => exact (rhs_proj_0 _ _).trans hk
      | ⟨1, _⟩ => exact rhs_proj_1 _ _)
  rw [el, er]

/-! ## The tile functions at an index -/

/-- The exponential of a block at an index is the extended reals' exponential of the entry. -/
theorem exp_apply {s : Shape} {φ : FTy} (a : FVec Ideal s φ) (i : s.Idx) : exp a i = Ideal.exp (a i) := rfl

/-- A score is the dot product over the 512 features, plus the two correction products of the three-pass product, whose
    second factors are differences `x - x`. -/
theorem scores_apply (x0 : Vec Ideal S1x1024x512 .f32) (x1 : Vec Ideal S1x512x1024 .f32) (r t : Fin 1024) :
    scores x0 x1 (ix2 r t)
      = (∑ d : Fin 512, x0 (ix3 (0 : Fin 1) r d) * x1 (ix3 (0 : Fin 1) d t)
          + ∑ d : Fin 512, x0 (ix3 (0 : Fin 1) r d) * (x1 (ix3 (0 : Fin 1) d t) - x1 (ix3 (0 : Fin 1) d t)))
        + ∑ d : Fin 512, (x0 (ix3 (0 : Fin 1) r d) - x0 (ix3 (0 : Fin 1) r d)) * x1 (ix3 (0 : Fin 1) d t) := by
  unfold scores k0_pay9
  rw [addf_apply, addf_apply, matmul_qk_apply, matmul_qk_apply, matmul_qk_apply]
  simp only [truncf_apply, subf_apply, shapeCast_1ab_ab_apply]

/-- The running maximum is stored through a cast to its own shape. -/
theorem stepM_eq (x0 : Vec Ideal S1x1024x512 .f32) (x1 : Vec Ideal S1x512x1024 .f32) (m : Vec Ideal S1024x1 .f32) :
    stepM x0 x1 m = k0_pay10 x0 x1 m := by
  unfold stepM k0_pay3
  exact shapeCast_self _ _

/-- The maximum of a row against the old one, before it is stored. -/
theorem pay10_apply (x0 : Vec Ideal S1x1024x512 .f32) (x1 : Vec Ideal S1x512x1024 .f32) (m : Vec Ideal S1024x1 .f32) (r : Fin 1024) :
    k0_pay10 x0 x1 m (ix2 r (0 : Fin 1))
      = max (m (ix2 r (0 : Fin 1))) ((Finset.univ : Finset (Fin 1024)).fold max (⊥ : EReal) (fun t => scores x0 x1 (ix2 r t))) := by
  unfold k0_pay10 scores
  rw [maximumf_apply]
  refine congrArg (max (m (ix2 r (0 : Fin 1)))) ?_
  refine (shapeCast_a_a1_apply _ _ r (0 : Fin 1)).trans ?_
  exact rowMax_apply _ _ _ _ r

/-- The new maximum of a row: the old one against the fold of `max` over the tile's 1024 scores, from `⊥`. -/
theorem stepM_apply (x0 : Vec Ideal S1x1024x512 .f32) (x1 : Vec Ideal S1x512x1024 .f32) (m : Vec Ideal S1024x1 .f32) (r : Fin 1024) :
    stepM x0 x1 m (ix2 r (0 : Fin 1))
      = max (m (ix2 r (0 : Fin 1))) ((Finset.univ : Finset (Fin 1024)).fold max (⊥ : EReal) (fun t => scores x0 x1 (ix2 r t))) := by
  rw [stepM_eq]
  exact pay10_apply x0 x1 m r

/-- A weight of the tile: the exponential of the score less the row's new maximum. -/
theorem pay12_apply (x0 : Vec Ideal S1x1024x512 .f32) (x1 : Vec Ideal S1x512x1024 .f32) (m : Vec Ideal S1024x1 .f32) (r t : Fin 1024) :
    k0_pay12 x0 x1 m (ix2 r t) = Ideal.exp (scores x0 x1 (ix2 r t) - k0_pay10 x0 x1 m (ix2 r (0 : Fin 1))) := by
  unfold k0_pay12 scores
  rw [exp_apply, subf_apply, broadcastTo_a1_ab_apply]

/-- The new sum of a row. -/
theorem stepL_apply (x0 : Vec Ideal S1x1024x512 .f32) (x1 : Vec Ideal S1x512x1024 .f32) (m l : Vec Ideal S1024x1 .f32) (r : Fin 1024) :
    stepL x0 x1 m l (ix2 r (0 : Fin 1))
      = Ideal.exp (m (ix2 r (0 : Fin 1)) - stepM x0 x1 m (ix2 r (0 : Fin 1))) * l (ix2 r (0 : Fin 1))
        + ∑ t : Fin 1024, Ideal.exp (scores x0 x1 (ix2 r t) - stepM x0 x1 m (ix2 r (0 : Fin 1))) := by
  rw [stepM_eq]
  unfold stepL k0_pay1 k0_pay13 k0_pay11
  rw [shapeCast_self, addf_apply, mulf_apply, exp_apply, subf_apply]
  refine congrArg (Ideal.exp (m (ix2 r (0 : Fin 1)) - k0_pay10 x0 x1 m (ix2 r (0 : Fin 1))) * l (ix2 r (0 : Fin 1)) + ·) ?_
  refine (shapeCast_a_a1_apply _ _ r (0 : Fin 1)).trans ?_
  refine (rowSum_apply _ _ _ _ r).trans ?_
  exact Finset.sum_congr rfl fun t _ => pay12_apply x0 x1 m r t

/-- The new accumulator of a row at feature `k`. -/
theorem stepAcc_apply (x0 : Vec Ideal S1x1024x512 .f32) (x1 : Vec Ideal S1x512x1024 .f32) (x2 : Vec Ideal S1x1024x512 .f32)
    (m : Vec Ideal S1024x1 .f32) (acc : Vec Ideal S1024x512 .f32) (r : Fin 1024) (k : Fin 512) :
    stepAcc x0 x1 x2 m acc (ix2 r k)
      = Ideal.exp (m (ix2 r (0 : Fin 1)) - stepM x0 x1 m (ix2 r (0 : Fin 1))) * acc (ix2 r k)
        + ∑ t : Fin 1024, Ideal.exp (scores x0 x1 (ix2 r t) - stepM x0 x1 m (ix2 r (0 : Fin 1))) * x2 (ix3 (0 : Fin 1) t k) := by
  rw [stepM_eq]
  unfold stepAcc k0_pay2 k0_pay8 k0_pay11
  rw [shapeCast_self, addf_apply, mulf_apply, broadcastTo_a1_ab_apply, exp_apply, subf_apply, matmul_pv_apply]
  refine congrArg (Ideal.exp (m (ix2 r (0 : Fin 1)) - k0_pay10 x0 x1 m (ix2 r (0 : Fin 1))) * acc (ix2 r k) + ·) ?_
  refine Finset.sum_congr rfl fun t _ => ?_
  rw [truncf_apply, truncf_apply, shapeCast_1ab_ab_apply, pay12_apply]

/-- The output block at (r, j). -/
theorem outBlk_apply (x3 : Vec Ideal S512x512 .f32) (x4 : Vec Ideal S1x512 .f32) (l : Vec Ideal S1024x1 .f32)
    (acc : Vec Ideal S1024x512 .f32) (r : Fin 1024) (j : Fin 512) :
    outBlk x3 x4 l acc (ix2 r j)
      = (∑ k : Fin 512, Ideal.div (acc (ix2 r k)) (l (ix2 r (0 : Fin 1))) * x3 (ix2 k j)) + x4 (ix2 (0 : Fin 1) j) := by
  unfold outBlk k0_pay4
  rw [addf_apply, matmul_proj_apply, broadcastTo_1b_ab_apply]
  refine congrArg (· + x4 (ix2 (0 : Fin 1) j)) ?_
  refine Finset.sum_congr rfl fun k _ => ?_
  rw [divf_apply, broadcastTo_a1_ab_apply]

/-- The reset values. -/
theorem m0_apply (y : S1024x1.Idx) : m0 (F := Ideal) y = (⊥ : EReal) := by
  show k0_pay5 (F := Ideal) y = ⊥
  unfold k0_pay5
  rw [shapeCast_self]
  exact Cert.OnlineSoftmax.ofBits_neg_inf
theorem l0_apply (y : S1024x1.Idx) : l0 (F := Ideal) y = (0 : EReal) := by
  show k0_pay6 (F := Ideal) y = 0
  unfold k0_pay6
  rw [shapeCast_self]
  exact Ideal.ofBits_zero_f32
theorem acc0_apply (y : S1024x512.Idx) : acc0 (F := Ideal) y = (0 : EReal) := by
  show k0_pay7 (F := Ideal) y = 0
  unfold k0_pay7
  rw [shapeCast_self]
  exact Ideal.ofBits_zero_f32

end Cert.KernelIdeal.Tile
-- ==== Proof.TileStep.lean ====
/-
  One tile of the online softmax, read at the extended reals on real data: the tile functions of `Steps.lean` take a
  row state after `cnt` keys to the row state after `cnt + 1024` keys, the reset values to the state after the first
  1024, and the output block of a state is the projected softmax-weighted mean.
-/
import proofs.«427413_j53420803228132_3_alg».proof.Proof.Steps
import proofs.«427413_j53420803228132_3_alg».proof.Proof.RowState
import proofs.«427413_j53420803228132_3_alg».proof.Proof.OnlineSoftmax
import proofs.«427413_j53420803228132_3_alg».proof.Proof.TileIndex
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Attn Idealize.ShloMosaic Idealize.ShloMosaic.ValueIdx

/-- On real entries a score is the real dot product: the two correction sums vanish, each term having a factor
    `a - a = 0` with `a` real. -/
theorem scores_real (x0 : Vec Ideal S1x1024x512 .f32) (x1 : Vec Ideal S1x512x1024 .f32)
    (Q : Fin 1024 → Fin 512 → ℝ) (KT : Fin 512 → Fin 1024 → ℝ)
    (hx0 : ∀ (r : Fin 1024) (d : Fin 512), x0 (ix3 (0 : Fin 1) r d) = (Q r d : EReal))
    (hx1 : ∀ (d : Fin 512) (t : Fin 1024), x1 (ix3 (0 : Fin 1) d t) = (KT d t : EReal))
    (r t : Fin 1024) :
    scores x0 x1 (ix2 r t) = ((∑ d : Fin 512, Q r d * KT d t : ℝ) : EReal) := by
  have h1 : ∑ d : Fin 512, x0 (ix3 (0 : Fin 1) r d) * x1 (ix3 (0 : Fin 1) d t)
      = ((∑ d : Fin 512, Q r d * KT d t : ℝ) : EReal) := by
    rw [OnlineSoftmax.coe_sum]
    exact Finset.sum_congr rfl fun d _ => by rw [hx0, hx1, ← EReal.coe_mul]
  have h2 : ∑ d : Fin 512, x0 (ix3 (0 : Fin 1) r d) * (x1 (ix3 (0 : Fin 1) d t) - x1 (ix3 (0 : Fin 1) d t))
      = (0 : EReal) :=
    Finset.sum_eq_zero fun d _ => by rw [hx1, ← EReal.coe_sub, sub_self, EReal.coe_zero, mul_zero]
  have h3 : ∑ d : Fin 512, (x0 (ix3 (0 : Fin 1) r d) - x0 (ix3 (0 : Fin 1) r d)) * x1 (ix3 (0 : Fin 1) d t)
      = (0 : EReal) :=
    Finset.sum_eq_zero fun d _ => by rw [hx0, ← EReal.coe_sub, sub_self, EReal.coe_zero, zero_mul]
  rw [scores_apply, h1, h2, h3, add_zero, add_zero]

/-- The sum of weights after a tile of `K` real scores `sc t = S (cnt + t)`: the old sum under the reference point `M`,
    rescaled to `M'`, plus the tile's own weights, is the sum over the first `cnt + K` keys under `M'`. -/
theorem next_sum {K : ℕ} (S : ℕ → ℝ) (cnt : ℕ) (M M' : ℝ) (sc : Fin K → EReal)
    (hsc : ∀ t : Fin K, sc t = ((S (cnt + t.val) : ℝ) : EReal)) :
    Ideal.exp ((M : EReal) - (M' : EReal)) * ((∑ u ∈ Finset.range cnt, Real.exp (S u - M) : ℝ) : EReal)
        + ∑ t : Fin K, Ideal.exp (sc t - (M' : EReal))
      = ((∑ u ∈ Finset.range (cnt + K), Real.exp (S u - M') : ℝ) : EReal) := by
  have h1 : ∑ t : Fin K, Ideal.exp (sc t - (M' : EReal))
      = ((∑ t : Fin K, Real.exp (S (cnt + t.val) - M') : ℝ) : EReal) := by
    rw [← OnlineSoftmax.sum_exp_coe (fun t : Fin K => S (cnt + t.val)) M']
    exact Finset.sum_congr rfl fun t _ => by rw [hsc]
  rw [h1, OnlineSoftmax.next_step, OnlineSoftmax.rescale_one,
    OnlineSoftmax.sum_range_tile (fun u => Real.exp (S u - M')) cnt K]

/-- The same for the weighted sum of the value rows `v t = w (cnt + t)`. -/
theorem next_acc {K : ℕ} (S w : ℕ → ℝ) (cnt : ℕ) (M M' : ℝ) (sc v : Fin K → EReal)
    (hsc : ∀ t : Fin K, sc t = ((S (cnt + t.val) : ℝ) : EReal))
    (hv : ∀ t : Fin K, v t = ((w (cnt + t.val) : ℝ) : EReal)) :
    Ideal.exp ((M : EReal) - (M' : EReal)) * ((∑ u ∈ Finset.range cnt, Real.exp (S u - M) * w u : ℝ) : EReal)
        + ∑ t : Fin K, Ideal.exp (sc t - (M' : EReal)) * v t
      = ((∑ u ∈ Finset.range (cnt + K), Real.exp (S u - M') * w u : ℝ) : EReal) := by
  have h1 : ∑ t : Fin K, Ideal.exp (sc t - (M' : EReal)) * v t
      = ((∑ t : Fin K, Real.exp (S (cnt + t.val) - M') * w (cnt + t.val) : ℝ) : EReal) := by
    rw [← OnlineSoftmax.sum_exp_mul_coe (fun t : Fin K => S (cnt + t.val)) (fun t : Fin K => w (cnt + t.val)) M']
    exact Finset.sum_congr rfl fun t _ => by rw [hsc, hv]
  rw [h1, OnlineSoftmax.next_step, OnlineSoftmax.rescale,
    OnlineSoftmax.sum_range_tile (fun u => Real.exp (S u - M') * w u) cnt K]

/-- The first tile's sum of weights: from the maximum `⊥` and the sum `0` only the tile's own weights remain. -/
theorem first_sum {K : ℕ} (S : ℕ → ℝ) (M' : ℝ) (sc : Fin K → EReal)
    (hsc : ∀ t : Fin K, sc t = ((S (0 + t.val) : ℝ) : EReal)) :
    Ideal.exp ((⊥ : EReal) - (M' : EReal)) * 0 + ∑ t : Fin K, Ideal.exp (sc t - (M' : EReal))
      = ((∑ u ∈ Finset.range (0 + K), Real.exp (S u - M') : ℝ) : EReal) := by
  have h1 : ∑ t : Fin K, Ideal.exp (sc t - (M' : EReal))
      = ((∑ t : Fin K, Real.exp (S (0 + t.val) - M') : ℝ) : EReal) := by
    rw [← OnlineSoftmax.sum_exp_coe (fun t : Fin K => S (0 + t.val)) M']
    exact Finset.sum_congr rfl fun t _ => by rw [hsc]
  rw [h1, OnlineSoftmax.first_step, OnlineSoftmax.sum_range_tile (fun u => Real.exp (S u - M')) 0 K,
    Finset.sum_range_zero, zero_add]

/-- The first tile's weighted sum of the value rows. -/
theorem first_acc {K : ℕ} (S w : ℕ → ℝ) (M' : ℝ) (sc v : Fin K → EReal)
    (hsc : ∀ t : Fin K, sc t = ((S (0 + t.val) : ℝ) : EReal))
    (hv : ∀ t : Fin K, v t = ((w (0 + t.val) : ℝ) : EReal)) :
    Ideal.exp ((⊥ : EReal) - (M' : EReal)) * 0 + ∑ t : Fin K, Ideal.exp (sc t - (M' : EReal)) * v t
      = ((∑ u ∈ Finset.range (0 + K), Real.exp (S u - M') * w u : ℝ) : EReal) := by
  have h1 : ∑ t : Fin K, Ideal.exp (sc t - (M' : EReal)) * v t
      = ((∑ t : Fin K, Real.exp (S (0 + t.val) - M') * w (0 + t.val) : ℝ) : EReal) := by
    rw [← OnlineSoftmax.sum_exp_mul_coe (fun t : Fin K => S (0 + t.val)) (fun t : Fin K => w (0 + t.val)) M']
    exact Finset.sum_congr rfl fun t _ => by rw [hsc, hv]
  rw [h1, OnlineSoftmax.first_step, OnlineSoftmax.sum_range_tile (fun u => Real.exp (S u - M') * w u) 0 K,
    Finset.sum_range_zero, zero_add]

/-- The reference point cancels from the accumulated quotient. -/
theorem quotient_shift {ι : Type*} (u : Finset ι) (S w : ι → ℝ) (m : ℝ) :
    (∑ i ∈ u, Real.exp (S i - m) * w i) / (∑ i ∈ u, Real.exp (S i - m))
      = (∑ i ∈ u, Real.exp (S i) * w i) / (∑ i ∈ u, Real.exp (S i)) := by
  have h1 := OnlineSoftmax.rescale u S w 0 m
  have h2 := OnlineSoftmax.rescale_one u S 0 m
  simp only [sub_zero] at h1 h2
  rw [← h1, ← h2, mul_div_mul_left _ _ (Real.exp_pos _).ne']

/-- The first tile of a row block: from the reset values to the state after the first 1024 keys. -/
theorem rowState_first (x0 : Vec Ideal S1x1024x512 .f32) (x1 : Vec Ideal S1x512x1024 .f32) (x2 : Vec Ideal S1x1024x512 .f32)
    (Q : Fin 1024 → Fin 512 → ℝ) (KT : Fin 512 → Fin 1024 → ℝ) (Vt : Fin 1024 → Fin 512 → ℝ)
    (hx0 : ∀ (r : Fin 1024) (d : Fin 512), x0 (ix3 (0 : Fin 1) r d) = (Q r d : EReal))
    (hx1 : ∀ (d : Fin 512) (t : Fin 1024), x1 (ix3 (0 : Fin 1) d t) = (KT d t : EReal))
    (hx2 : ∀ (t : Fin 1024) (k : Fin 512), x2 (ix3 (0 : Fin 1) t k) = (Vt t k : EReal))
    (S : Fin 1024 → ℕ → ℝ) (W : ℕ → Fin 512 → ℝ)
    (hS : ∀ (r t : Fin 1024), ∑ d : Fin 512, Q r d * KT d t = S r (0 + t.val))
    (hW : ∀ (t : Fin 1024) (k : Fin 512), Vt t k = W (0 + t.val) k) :
    RowState (stepM x0 x1 (m0 (F := Ideal))) (stepL x0 x1 (m0 (F := Ideal)) (l0 (F := Ideal)))
      (stepAcc x0 x1 x2 (m0 (F := Ideal)) (acc0 (F := Ideal))) S W (0 + 1024) := by
  intro r
  have hsc : ∀ t : Fin 1024, scores x0 x1 (ix2 r t) = ((S r (0 + t.val) : ℝ) : EReal) := fun t => by
    rw [scores_real x0 x1 Q KT hx0 hx1, hS]
  obtain ⟨X, hX⟩ := OnlineSoftmax.fold_max_real (K := 1024) (by norm_num) (fun t => S r (0 + t.val))
  have hM' : stepM x0 x1 (m0 (F := Ideal)) (ix2 r (0 : Fin 1)) = ((X : ℝ) : EReal) := by
    rw [stepM_apply, m0_apply, (funext hsc : (fun t => scores x0 x1 (ix2 r t)) = fun t => ((S r (0 + t.val) : ℝ) : EReal)),
      hX]
    exact max_bot_left _
  refine ⟨X, hM', ?_, fun k => ?_⟩
  · rw [stepL_apply, hM', m0_apply, l0_apply]
    exact first_sum (S r) X (fun t => scores x0 x1 (ix2 r t)) hsc
  · rw [stepAcc_apply, hM', m0_apply, acc0_apply]
    exact first_acc (S r) (fun u => W u k) X (fun t => scores x0 x1 (ix2 r t)) (fun t => x2 (ix3 (0 : Fin 1) t k)) hsc
      (fun t => by rw [hx2, hW])

/-- A later tile: from the state after `cnt` keys to the state after `cnt + 1024`. -/
theorem rowState_next (x0 : Vec Ideal S1x1024x512 .f32) (x1 : Vec Ideal S1x512x1024 .f32) (x2 : Vec Ideal S1x1024x512 .f32)
    (Q : Fin 1024 → Fin 512 → ℝ) (KT : Fin 512 → Fin 1024 → ℝ) (Vt : Fin 1024 → Fin 512 → ℝ)
    (hx0 : ∀ (r : Fin 1024) (d : Fin 512), x0 (ix3 (0 : Fin 1) r d) = (Q r d : EReal))
    (hx1 : ∀ (d : Fin 512) (t : Fin 1024), x1 (ix3 (0 : Fin 1) d t) = (KT d t : EReal))
    (hx2 : ∀ (t : Fin 1024) (k : Fin 512), x2 (ix3 (0 : Fin 1) t k) = (Vt t k : EReal))
    (S : Fin 1024 → ℕ → ℝ) (W : ℕ → Fin 512 → ℝ) (cnt : ℕ)
    (hS : ∀ (r t : Fin 1024), ∑ d : Fin 512, Q r d * KT d t = S r (cnt + t.val))
    (hW : ∀ (t : Fin 1024) (k : Fin 512), Vt t k = W (cnt + t.val) k)
    (m l : Vec Ideal S1024x1 .f32) (acc : Vec Ideal S1024x512 .f32) (h : RowState m l acc S W cnt) :
    RowState (stepM x0 x1 m) (stepL x0 x1 m l) (stepAcc x0 x1 x2 m acc) S W (cnt + 1024) := by
  intro r
  obtain ⟨M, hm, hl, hacc⟩ := h r
  have hsc : ∀ t : Fin 1024, scores x0 x1 (ix2 r t) = ((S r (cnt + t.val) : ℝ) : EReal) := fun t => by
    rw [scores_real x0 x1 Q KT hx0 hx1, hS]
  obtain ⟨X, hX⟩ := OnlineSoftmax.fold_max_real (K := 1024) (by norm_num) (fun t => S r (cnt + t.val))
  have hM' : stepM x0 x1 m (ix2 r (0 : Fin 1)) = ((max M X : ℝ) : EReal) := by
    rw [stepM_apply, hm, (funext hsc : (fun t => scores x0 x1 (ix2 r t)) = fun t => ((S r (cnt + t.val) : ℝ) : EReal)),
      hX]
    exact (EReal.coe_strictMono.monotone.map_max).symm
  refine ⟨max M X, hM', ?_, fun k => ?_⟩
  · rw [stepL_apply, hM', hm, hl]
    exact next_sum (S r) cnt M (max M X) (fun t => scores x0 x1 (ix2 r t)) hsc
  · rw [stepAcc_apply, hM', hm, hacc k]
    exact next_acc (S r) (fun u => W u k) cnt M (max M X) (fun t => scores x0 x1 (ix2 r t))
      (fun t => x2 (ix3 (0 : Fin 1) t k)) hsc (fun t => by rw [hx2, hW])

/-- The output block of a state: each entry is the softmax-weighted mean of the value rows (the reference point has
    cancelled), projected by `P` and shifted by the bias row `Bv`. -/
theorem outBlk_of_rowState (x3 : Vec Ideal S512x512 .f32) (x4 : Vec Ideal S1x512 .f32)
    (P : Fin 512 → Fin 512 → ℝ) (Bv : Fin 512 → ℝ)
    (hx3 : ∀ (k j : Fin 512), x3 (ix2 k j) = (P k j : EReal))
    (hx4 : ∀ (j : Fin 512), x4 (ix2 (0 : Fin 1) j) = (Bv j : EReal))
    (S : Fin 1024 → ℕ → ℝ) (W : ℕ → Fin 512 → ℝ) (cnt : ℕ) (hcnt : 0 < cnt)
    (m l : Vec Ideal S1024x1 .f32) (acc : Vec Ideal S1024x512 .f32) (h : RowState m l acc S W cnt)
    (r : Fin 1024) (j : Fin 512) :
    outBlk x3 x4 l acc (ix2 r j)
      = (((∑ k : Fin 512, ((∑ u ∈ Finset.range cnt, Real.exp (S r u) * W u k) / (∑ u ∈ Finset.range cnt, Real.exp (S r u))) * P k j)
          + Bv j : ℝ) : EReal) := by
  obtain ⟨M, hm, hl, hacc⟩ := h r
  have hpos : (∑ u ∈ Finset.range cnt, Real.exp (S r u - M)) ≠ 0 :=
    (OnlineSoftmax.sum_exp_pos (Finset.range cnt) (Finset.nonempty_range_iff.mpr hcnt.ne') (S r) M).ne'
  have hterm : ∀ k : Fin 512, Ideal.div (acc (ix2 r k)) (l (ix2 r (0 : Fin 1))) * x3 (ix2 k j)
      = ((((∑ u ∈ Finset.range cnt, Real.exp (S r u) * W u k) / (∑ u ∈ Finset.range cnt, Real.exp (S r u))) * P k j : ℝ) : EReal) :=
    fun k => by
      rw [hacc k, hl, hx3, OnlineSoftmax.div_coe_coe _ _ hpos, quotient_shift (Finset.range cnt) (S r) (fun u => W u k) M,
        ← EReal.coe_mul]
  rw [outBlk_apply, hx4, EReal.coe_add, OnlineSoftmax.coe_sum]
  exact congrArg (· + ((Bv j : ℝ) : EReal)) (Finset.sum_congr rfl fun k _ => hterm k)

end Cert.KernelIdeal.Tile

end
-- ==== Proof.Invariant.lean ====
/-
  The online-softmax invariant along the grid, and the value of an output block.

  After the body at point `n` (batch `n / 16`, query block `n / 4 % 4`, key block `n % 4`) the three carried scratch
  buffers hold the row state of the query block's 1024 rows over the first `1024 (n % 4 + 1)` keys of the batch: by
  induction on the point — a row block's first point starts from the reset values, every later one from what the point
  before left, for the same batch and query block. At a row block's last point the state covers all 4096 keys and the
  output block is the specification's output rows `1024 (n / 4) ..`.
-/
import proofs.«427413_j53420803228132_3_alg».proof.Proof.Gen.KernelIdeal.Frame
import proofs.«427413_j53420803228132_3_alg».proof.Proof.Pieces
import proofs.«427413_j53420803228132_3_alg».proof.Proof.BlockRead
import proofs.«427413_j53420803228132_3_alg».proof.Proof.TileStep
import proofs.«427413_j53420803228132_3_alg».proof.Proof.Spec

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Tile Cert.KernelIdeal.Blocks Cert.Attn

variable (m : (ℓ : Loc nD τ sig) → Buf (Elt Ideal) ℓ)

/-- The five argument buffers of core `c`, as functions of an index. -/
abbrev A0 (c : Dev nD) : S2x4096x512.Idx → EReal := m ((c : Thread nD τ).loc main_arg0)
abbrev A1 (c : Dev nD) : S2x512x4096.Idx → EReal := m ((c : Thread nD τ).loc main_arg1)
abbrev A2 (c : Dev nD) : S2x4096x512.Idx → EReal := m ((c : Thread nD τ).loc main_arg2)
abbrev A3 (c : Dev nD) : S512x512.Idx → EReal := m ((c : Thread nD τ).loc main_arg3)
abbrev A4 (c : Dev nD) : S1x512.Idx → EReal := m ((c : Thread nD τ).loc main_arg4)

/-- All five argument buffers of core `c` hold real numbers. -/
def ArgsReal (c : Dev nD) : Prop :=
  IsReal (A0 m c) ∧ IsReal (A1 m c) ∧ IsReal (A2 m c) ∧ IsReal (A3 m c) ∧ IsReal (A4 m c)

/-- The scores of the rows of point `n`'s query block against every key of its batch (zero past the last key). -/
def Sg (c : Dev nD) (n : ℕ) : Fin 1024 → ℕ → ℝ := fun r u =>
  if h : u < 4096 then score (real3 (A0 m c)) (real3 (A1 m c)) (ptB n) (ptRow n r) ⟨u, h⟩ else 0

/-- The value rows of point `n`'s batch (zero past the last key). -/
def Wg (c : Dev nD) (n : ℕ) : ℕ → Fin 512 → ℝ := fun u k =>
  if h : u < 4096 then real3 (A2 m c) (ptB n) ⟨u, h⟩ k else 0

theorem ptB_pred (n : ℕ) (h : ¬n % 4 = 0) : ptB (n - 1) = ptB n :=
  Fin.ext (by show (n - 1) / 16 % 2 = n / 16 % 2; omega)

theorem ptRow_pred (n : ℕ) (h : ¬n % 4 = 0) (r : Fin 1024) : ptRow (n - 1) r = ptRow n r :=
  Fin.ext (by show (n - 1) / 4 % 4 * 1024 + r.val = n / 4 % 4 * 1024 + r.val; omega)

/-- Within a row block the scores and the value rows are those of the same batch and query block. -/
theorem Sg_pred (c : Dev nD) (n : ℕ) (h : ¬n % 4 = 0) : Sg m c (n - 1) = Sg m c n := by
  funext r u
  unfold Sg
  rw [ptB_pred n h, ptRow_pred n h r]

theorem Wg_pred (c : Dev nD) (n : ℕ) (h : ¬n % 4 = 0) : Wg m c (n - 1) = Wg m c n := by
  funext u k
  unfold Wg
  rw [ptB_pred n h]

/-- THE INVARIANT: after point `n` the carried scratch is the row state over the first `1024 (n % 4 + 1)` keys. -/
theorem rowState_at (c : Dev nD) (hr : ArgsReal m c) (n : ℕ) : ∀ (hn : n < cfg0.N),
    RowState (outsAt0 m c n hn).2.1 (outsAt0 m c n hn).2.2.1 (outsAt0 m c n hn).2.2.2 (Sg m c n) (Wg m c n) ((n % 4 + 1) * 1024) := by
  induction n using Nat.strong_induction_on with
  | _ n IH =>
    intro hn
    have hN : n < 32 := lt_of_lt_of_eq hn N_0
    obtain ⟨r0, r1, r2, -, -⟩ := hr
    have hx0 : ∀ (r : Fin 1024) (d : Fin 512), blkQ m c ⟨n, hn⟩ (ix3 (0 : Fin 1) r d)
        = ((real3 (A0 m c) (ptB n) (ptRow n r) d : ℝ) : EReal) :=
      fun r d => (blkQ_apply m c ⟨n, hn⟩ r d).trans (r0.eq_real3 _ _ _)
    have hx1 : ∀ (d : Fin 512) (u : Fin 1024), blkK m c ⟨n, hn⟩ (ix3 (0 : Fin 1) d u)
        = ((real3 (A1 m c) (ptB n) d (ptKey n u) : ℝ) : EReal) :=
      fun d u => (blkK_apply m c ⟨n, hn⟩ d u).trans (r1.eq_real3 _ _ _)
    have hx2 : ∀ (u : Fin 1024) (k : Fin 512), blkV m c ⟨n, hn⟩ (ix3 (0 : Fin 1) u k)
        = ((real3 (A2 m c) (ptB n) (ptKey n u) k : ℝ) : EReal) :=
      fun u k => (blkV_apply m c ⟨n, hn⟩ u k).trans (r2.eq_real3 _ _ _)
    have hS : ∀ (r u : Fin 1024), ∑ d : Fin 512, real3 (A0 m c) (ptB n) (ptRow n r) d * real3 (A1 m c) (ptB n) d (ptKey n u)
        = Sg m c n r (n % 4 * 1024 + u.val) := by
      intro r u
      have hlt : n % 4 * 1024 + u.val < 4096 := by have := u.isLt; omega
      unfold Sg
      rw [dif_pos hlt]
      rfl
    have hW : ∀ (u : Fin 1024) (k : Fin 512), real3 (A2 m c) (ptB n) (ptKey n u) k = Wg m c n (n % 4 * 1024 + u.val) k := by
      intro u k
      have hlt : n % 4 * 1024 + u.val < 4096 := by have := u.isLt; omega
      unfold Wg
      rw [dif_pos hlt]
      rfl
    by_cases h0 : n % 4 = 0
    · have h1 : ¬n % 4 = 3 := by omega
      rw [outsAt0_A m c ⟨n, hn⟩ h0 h1]
      dsimp only
      rw [sout_A_0, sout_A_1, sout_A_2]
      have key := rowState_first (blkQ m c ⟨n, hn⟩) (blkK m c ⟨n, hn⟩) (blkV m c ⟨n, hn⟩) _ _ _ hx0 hx1 hx2 (Sg m c n) (Wg m c n)
        (fun r u => (hS r u).trans (congrArg (Sg m c n r) (by omega)))
        (fun u k => (hW u k).trans (congrFun (congrArg (Wg m c n) (by omega)) k))
      rw [show (n % 4 + 1) * 1024 = 0 + 1024 by omega]
      exact key
    · have hn' : n - 1 < cfg0.N := Nat.lt_of_le_of_lt (Nat.sub_le _ _) hn
      have ih := IH (n - 1) (by omega) hn'
      rw [Sg_pred m c n h0, Wg_pred m c n h0, show ((n - 1) % 4 + 1) * 1024 = n % 4 * 1024 by omega] at ih
      by_cases h1 : n % 4 = 3
      · rw [outsAt0_C m c ⟨n, hn⟩ h0 h1]
        dsimp only
        rw [sout_C_0, sout_C_1, sout_C_2]
        have key := rowState_next (blkQ m c ⟨n, hn⟩) (blkK m c ⟨n, hn⟩) (blkV m c ⟨n, hn⟩) _ _ _ hx0 hx1 hx2 (Sg m c n) (Wg m c n)
          (n % 4 * 1024) hS hW _ _ _ ih
        rw [show (n % 4 + 1) * 1024 = n % 4 * 1024 + 1024 by omega]
        exact key
      · rw [outsAt0_B m c ⟨n, hn⟩ h0 h1]
        dsimp only
        rw [sout_B_0, sout_B_1, sout_B_2]
        have key := rowState_next (blkQ m c ⟨n, hn⟩) (blkK m c ⟨n, hn⟩) (blkV m c ⟨n, hn⟩) _ _ _ hx0 hx1 hx2 (Sg m c n) (Wg m c n)
          (n % 4 * 1024) hS hW _ _ _ ih
        rw [show (n % 4 + 1) * 1024 = n % 4 * 1024 + 1024 by omega]
        exact key

/-- The output block left at a row block's last point: the specification's output, rows `1024 (t / 4) ..`. -/
theorem out_value (c : Dev nD) (hr : ArgsReal m c) (t : Fin cfg0.N) (h3 : t.val % 4 = 3) (r : Fin 1024) (j : Fin 512) :
    (outsAt0 m c t.val t.isLt).1 (ix2 r j)
      = outBuf (A0 m c) (A1 m c) (A2 m c) (A3 m c) (A4 m c)
          (ix2 (⟨t.val / 4 * 1024 + r.val, by have := lt32 t; have := r.isLt; omega⟩ : Fin 8192) j) := by
  have hN := lt32 t
  have hr5 := r.isLt
  have h0 : ¬t.val % 4 = 0 := by omega
  have hst := rowState_at m c hr t.val t.isLt
  rw [show (t.val % 4 + 1) * 1024 = 4096 by omega] at hst
  obtain ⟨-, -, -, r3, r4⟩ := hr
  have e : (outsAt0 m c t.val t.isLt).1
      = outBlk (blkP m c t) (blkB m c t) (outsAt0 m c t.val t.isLt).2.2.1 (outsAt0 m c t.val t.isLt).2.2.2 := by
    rw [outsAt0_C m c t h0 h3]
    dsimp only
    rw [out_C_5, sout_C_1, sout_C_2]
  rw [e, outBlk_of_rowState (blkP m c t) (blkB m c t) (real2 (A3 m c)) (fun j => real2 (A4 m c) (0 : Fin 1) j)
    (fun k j => (blkP_apply m c t k j).trans (r3.eq_real2 k j)) (fun j => (blkB_apply m c t j).trans (r4.eq_real2 (0 : Fin 1) j))
    (Sg m c t.val) (Wg m c t.val) 4096 (by decide) _ _ _ hst r j, outBuf_apply]
  refine congrArg (fun x : ℝ => (x : EReal)) ?_
  unfold out ctx
  have hb : rowBatch (⟨t.val / 4 * 1024 + r.val, by omega⟩ : Fin 8192) = ptB t.val :=
    Fin.ext (by show (t.val / 4 * 1024 + r.val) / 4096 = t.val / 16 % 2; omega)
  have hs : rowSeq (⟨t.val / 4 * 1024 + r.val, by omega⟩ : Fin 8192) = ptRow t.val r :=
    Fin.ext (by show (t.val / 4 * 1024 + r.val) % 4096 = t.val / 4 % 4 * 1024 + r.val; omega)
  rw [hb, hs]
  have hnum : ∀ k : Fin 512, ∑ u ∈ Finset.range 4096, Real.exp (Sg m c t.val r u) * Wg m c t.val u k
      = ∑ u : Fin 4096, Real.exp (score (real3 (A0 m c)) (real3 (A1 m c)) (ptB t.val) (ptRow t.val r) u) * real3 (A2 m c) (ptB t.val) u k := by
    intro k
    rw [Finset.sum_range]
    refine Finset.sum_congr rfl fun u _ => ?_
    unfold Sg Wg
    rw [dif_pos u.isLt, dif_pos u.isLt]
  have hden : ∑ u ∈ Finset.range 4096, Real.exp (Sg m c t.val r u)
      = ∑ u : Fin 4096, Real.exp (score (real3 (A0 m c)) (real3 (A1 m c)) (ptB t.val) (ptRow t.val r) u) := by
    rw [Finset.sum_range]
    refine Finset.sum_congr rfl fun u _ => ?_
    unfold Sg
    rw [dif_pos u.isLt]
  simp only [hnum, hden]

end Cert.KernelIdeal.Inv

end
-- ==== Proof.KernelValue.lean ====
/-
  From the output blocks to the result array, and the kernel's run re-posted at the specification.

  The output window writes back at the last point of each row block (the points `t` with `t % 4 = 3`), and what it
  writes there is block `t / 4` of the flattened [8192, 512] result: rows `1024 (t / 4) ..`, all 512 columns. By the
  invariant's `out_value` the block written is the specification's output at those rows, that is, the specification's
  buffer read through the block's rectangle. Row `i` of the result lies in the block of point `4 (i / 1024) + 3`, so the
  written blocks cover the array, and the array ends holding the specification's buffer.
-/
import proofs.«427413_j53420803228132_3_alg».proof.Proof.Gen.KernelIdeal.Value
import proofs.«427413_j53420803228132_3_alg».proof.Proof.Invariant
import proofs.«427413_j53420803228132_3_alg».proof.Proof.BlockRead
import proofs.«427413_j53420803228132_3_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Blocks Cert.Attn

variable (m : (ℓ : Loc nD τ sig) → Buf (Elt Ideal) ℓ) (ρ : Dev nD → PrngReg)

/-- WHAT A ROW BLOCK'S LAST POINT WRITES BACK is its block of the specification's buffer: row `r` of the block is row
    `1024 (t / 4) + r` of the result. -/
theorem flushed_eq (c : Dev nD) (hr : ArgsReal m c) (t : Fin cfg0.N) (hf : (cfg0.win 5).flush t = true) :
    (dats m 0 c).flushed 5 t
      = ((cfg0.win 5).blk t).view.read (Elt Ideal) (outBuf (A0 m c) (A1 m c) (A2 m c) (A3 m c) (A4 m c)) := by
  have h3 : t.val % 4 = 3 := (flush0_5 t).mp hf
  obtain ⟨-, -, -, -, -, e0, e1⟩ := idx_facts t
  have hN := lt32 t
  rw [Cert.KernelIdeal.Value.flushed5]
  funext y
  obtain ⟨r, j, rfl⟩ : ∃ (r : Fin 1024) (j : Fin 512), y = ix2 r j := ⟨y 0, y 1, eq_ix2 y⟩
  show (outsAt0 m c t.val t.isLt).1 (ix2 r j)
    = outBuf (A0 m c) (A1 m c) (A2 m c) (A3 m c) (A4 m c) (((cfg0.win 5).blk t).view.emb (ix2 r j))
  rw [out_value m c hr t h3 r j]
  refine congrArg (outBuf (A0 m c) (A1 m c) (A2 m c) (A3 m c) (A4 m c)) (funext fun a => Fin.ext ?_)
  match a with
  | ⟨0, _⟩ => show t.val / 4 * 1024 + r.val = win0_5.index t (0 : Fin 2) * 1024 + 1 * r.val; omega
  | ⟨1, _⟩ => show j.val = win0_5.index t (1 : Fin 2) * 512 + 1 * j.val; omega

/-- An index of the result is in point `t`'s block iff each coordinate is in the block's range on its axis. -/
theorem mem_blk (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v0).slice (win0_5.rect t)).set ↔ _
  rw [View.set_slice_whole, Rect.mem_set_unit]
  exact Iff.rfl

/-- THE COVER: row `i` of the result is in the block the last point of its row block writes, point `4 (i / 1024) + 3`. -/
theorem cover (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ : ∃ t : Fin cfg0.N, t.val = 4 * ((i 0).val / 1024) + 3 :=
    ⟨⟨4 * ((i 0).val / 1024) + 3, lt_of_lt_of_eq (by omega : 4 * ((i 0).val / 1024) + 3 < 32) (show cfg0.N = 32 from N_0).symm⟩, rfl⟩
  obtain ⟨-, -, -, -, -, e0, e1⟩ := idx_facts t
  refine ⟨t, (flush0_5 t).mpr (by omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- THE RESULT ARRAY after the run is the specification's buffer. -/
theorem final (c : Dev nD) (hr : ArgsReal m c) :
    (dats m 0 c).arrAt 5 cfg0.N = outBuf (A0 m c) (A1 m c) (A2 m c) (A3 m c) (A4 m c) :=
  (dats m 0 c).arrAt_eq_of_cover 5 (outBuf (A0 m c) (A1 m c) (A2 m c) (A3 m c) (A4 m c))
    (fun t hf => flushed_eq m c hr t hf) cover

/-- The kernel's run re-posted: the result array at the specification's buffer, the arguments unchanged. -/
theorem run (hr : ∀ c : Dev nD, ArgsReal m c) :
    θ_run defs (onTc (τ := τ) (main (F := Ideal))) ⟨m, fun _ => 0, ρ⟩ fun r => ∀ c : Dev nD,
      r.2.mem ((c : Thread nD τ).loc main_v0) = outBuf (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hr c)), (h c).2⟩)
    (Cert.KernelIdeal.Value.run_blocks m ρ)

end Cert.KernelIdeal.Inv

end
-- ==== Proof.RefValue.lean ====
/-
  The reference's result, read at an index at the extended reals, is the specification's real number.

  The reference computes, for real inputs, a chain of real numbers. The scores are finite sums of products of reals.
  The row maximum is a fold of `max` from `⊥` over a nonempty row of reals, hence a real number `M`; WHICH real number
  is immaterial, because the softmax quotient does not depend on the reference point subtracted before `exp`. Then
  `exp (score - M)` is a positive real, the row sum `L` of these is a positive real, each weight `exp (score - M) / L`
  is a real, the weighted sum of the value rows is the specification's context (the common factor `exp (-M)` cancels),
  the reshape sends row `r` of the flattened result to batch `r / 4096`, query row `r % 4096`, and the projection
  plus the bias row is the specification's output.
-/
import proofs.«427413_j53420803228132_3_alg».proof.Proof.Gen.ReferenceIdeal.Read
import proofs.«427413_j53420803228132_3_alg».proof.Proof.Spec
import proofs.«427413_j53420803228132_3_alg».proof.Proof.OnlineSoftmax
import Idealize.ShloMosaic.PureOps.Reduce
import Idealize.ShloMosaic.PureOps.Ideal.Laws
import Idealize.ShloMosaic.Lib.ValueIdx

namespace Cert.Attn.Ref

open Idealize.ShloMosaic Idealize.ShloMosaic.ValueIdx
open Cert.ReferenceIdeal Cert.ReferenceIdeal.Gen Cert.ReferenceIdeal.Read

/-! ## Pure facts -/

/-- A fold of `max` from `⊥` over a nonempty finite set of entries none of which is infinite is a real number. -/
theorem fold_max_isReal {ι : Type*} (s : Finset ι) (hs : s.Nonempty) (g : ι → EReal) (hg : ∀ k, g k ≠ ⊤ ∧ g k ≠ ⊥) :
    ∃ M : ℝ, s.fold max (⊥ : EReal) g = (M : EReal) := by
  have e : g = fun k => (((g k).toReal : ℝ) : EReal) :=
    funext fun k => (EReal.coe_toReal (hg k).1 (hg k).2).symm
  rw [e]
  rcases OnlineSoftmax.fold_max_bot_or_real s (fun k => (g k).toReal) with ⟨h, _⟩ | h
  · exact absurd h hs.ne_empty
  · exact h

/-- The host's reduce with a maximum body over ONE axis of positive extent, from an initial value `⊥`, of an
    operand without infinite entries: a real number at every result index. -/
theorem hostReduce_max_real {s t u : Shape} {a : Fin s.rank} (x : s.Idx → EReal) (hx : ∀ i, x i ≠ ⊤ ∧ x i ≠ ⊥)
    (init : u.Idx → EReal) (h' : s.ReducesTo [a] t) (h : s.Reduces [a] t) (hu : 0 < u.numel)
    (hinit : init (Shape.Idx.first hu) = ⊥) (hpos : 0 < s.size a) (j : t.Idx) :
    ∃ M : ℝ, Host.reduce (FloatOps.maximumf (F := Ideal) (φ := .f32)) x init h' hu j = (M : EReal) := by
  obtain ⟨M, hM⟩ := fold_max_isReal (Finset.univ : Finset (Fin (s.size a))) ⟨⟨0, hpos⟩, Finset.mem_univ _⟩
    (x ∘ h.lift j) (fun k => hx (h.lift j k))
  refine ⟨M, ?_⟩
  rw [Host.reduce_eq_fold_single (FloatOps.maximumf (F := Ideal) (φ := .f32)) x init h' h hu j, hinit]
  exact hM

/-- The specification's context is the weighted sum of the value rows, the weights normalised under ANY reference
    point `M`. -/
theorem ctx_eq_sum (D1 : Fin 2 → Fin 4096 → Fin 512 → ℝ) (D2 : Fin 2 → Fin 512 → Fin 4096 → ℝ)
    (D3 : Fin 2 → Fin 4096 → Fin 512 → ℝ) (b : Fin 2) (s : Fin 4096) (k : Fin 512) (M : ℝ) :
    ctx D1 D2 D3 b s k
      = ∑ t : Fin 4096, Real.exp (score D1 D2 b s t - M) / (∑ j : Fin 4096, Real.exp (score D1 D2 b s j - M)) * D3 b t k := by
  have h := OnlineSoftmax.quotient_eq Finset.univ (fun t => score D1 D2 b s t) (fun t => D3 b t k) 0 M
  simp only [sub_zero] at h
  exact h

/-! ## The stages, row by row -/

section Stages

variable (a0 : (⟨S2x4096x512, .f32⟩ : BufTy).Contents (Elt Ideal)) (a1 : (⟨S2x512x4096, .f32⟩ : BufTy).Contents (Elt Ideal))
  (a2 : (⟨S2x4096x512, .f32⟩ : BufTy).Contents (Elt Ideal)) (a3 : (⟨S512x512, .f32⟩ : BufTy).Contents (Elt Ideal))
  (a4 : (⟨S1x512, .f32⟩ : BufTy).Contents (Elt Ideal))

/-- The scores are the real dot products. -/
theorem v0_eq (h0 : IsReal a0) (h1 : IsReal a1) (b : Fin 2) (s t : Fin 4096) :
    val_main_v0 (F := Ideal) a0 a1 (ix3 b s t) = ((score (real3 a0) (real3 a1) b s t : ℝ) : EReal) := by
  rw [val_main_v0_apply]
  unfold score
  rw [OnlineSoftmax.coe_sum]
  refine Finset.sum_congr rfl fun d _ => ?_
  have el : lidx_main_v0 (ix3 b s t) d = ix3 b s d := funext fun a => by
    match a with | ⟨0, _⟩ => rfl | ⟨1, _⟩ => rfl | ⟨2, _⟩ => rfl
  have er : ridx_main_v0 (ix3 b s t) d = ix3 b d t := funext fun a => by
    match a with | ⟨0, _⟩ => rfl | ⟨1, _⟩ => rfl | ⟨2, _⟩ => rfl
  rw [el, er, h0.eq_real3, h1.eq_real3, ← EReal.coe_mul]

/-- No score is infinite. -/
theorem v0_ne (h0 : IsReal a0) (h1 : IsReal a1) (i : S2x4096x4096.Idx) :
    val_main_v0 (F := Ideal) a0 a1 i ≠ ⊤ ∧ val_main_v0 (F := Ideal) a0 a1 i ≠ ⊥ := by
  obtain ⟨b, s, t, rfl⟩ : ∃ (b : Fin 2) (s t : Fin 4096), i = ix3 b s t := ⟨_, _, _, eq_ix3 i⟩
  rw [v0_eq a0 a1 h0 h1]
  exact ⟨EReal.coe_ne_top _, EReal.coe_ne_bot _⟩

/-- The maximum of a row of scores, taken from `⊥`, is a real number. -/
theorem v1_real (h0 : IsReal a0) (h1 : IsReal a1) (b : Fin 2) (s : Fin 4096) :
    ∃ M : ℝ, val_main_v1 (F := Ideal) a0 a1 (ix2 b s) = (M : EReal) := by
  unfold val_main_v1
  exact hostReduce_max_real (s := S2x4096x4096) (t := S2x4096) (u := S_) (val_main_v0 (F := Ideal) a0 a1)
    (v0_ne a0 a1 h0 h1) (val_main_cst (F := Ideal)) reducesTo_S2x4096x4096_S2x4096_d2 (by decide) h_S_
    OnlineSoftmax.ofBits_neg_inf (by decide) (ix2 b s)

/-- Taking the maximum with `⊥` once more changes nothing. -/
theorem v3_real (h0 : IsReal a0) (h1 : IsReal a1) (b : Fin 2) (s : Fin 4096) :
    ∃ M : ℝ, val_main_v3 (F := Ideal) a0 a1 (ix2 b s) = (M : EReal) := by
  obtain ⟨M, hM⟩ := v1_real a0 a1 h0 h1 b s
  refine ⟨M, ?_⟩
  rw [val_main_v3_apply, val_main_v2_apply, val_main_cst_0_apply, hM]
  show max (Ideal.ofBits .f32 0xFF800000#32) (M : EReal) = (M : EReal)
  rw [OnlineSoftmax.ofBits_neg_inf]
  exact max_bot_left _

/-- The real number the reference subtracts from the scores of row `s` of batch `b`. -/
noncomputable def rowMax (b : Fin 2) (s : Fin 4096) : ℝ := (val_main_v3 (F := Ideal) a0 a1 (ix2 b s)).toReal

theorem v3_eq (h0 : IsReal a0) (h1 : IsReal a1) (b : Fin 2) (s : Fin 4096) :
    val_main_v3 (F := Ideal) a0 a1 (ix2 b s) = (rowMax a0 a1 b s : EReal) := by
  obtain ⟨M, hM⟩ := v3_real a0 a1 h0 h1 b s
  unfold rowMax
  rw [hM, EReal.toReal_coe]

/-- The row maximum broadcast along the row. -/
theorem v5_eq (h0 : IsReal a0) (h1 : IsReal a1) (b : Fin 2) (s t : Fin 4096) :
    val_main_v5 (F := Ideal) a0 a1 (ix3 b s t) = (rowMax a0 a1 b s : EReal) := by
  rw [val_main_v5_apply, val_main_v4_apply]
  have e : idx_main_v4 (idx_main_v5 (ix3 b s t)) = ix2 b s := funext fun a => by
    match a with | ⟨0, _⟩ => rfl | ⟨1, _⟩ => rfl
  rw [e, v3_eq a0 a1 h0 h1]

/-- The exponential of a score less the row's reference point: a real number. -/
theorem v7_eq (h0 : IsReal a0) (h1 : IsReal a1) (b : Fin 2) (s t : Fin 4096) :
    val_main_v7 (F := Ideal) a0 a1 (ix3 b s t)
      = ((Real.exp (score (real3 a0) (real3 a1) b s t - rowMax a0 a1 b s) : ℝ) : EReal) := by
  rw [val_main_v7_apply, val_main_v6_apply, v0_eq a0 a1 h0 h1, v5_eq a0 a1 h0 h1]
  exact OnlineSoftmax.exp_sub_coe _ _

/-- The row's sum of exponentials: a real number. -/
theorem v8_eq (h0 : IsReal a0) (h1 : IsReal a1) (b : Fin 2) (s : Fin 4096) :
    val_main_v8 (F := Ideal) a0 a1 (ix2 b s)
      = ((∑ t : Fin 4096, Real.exp (score (real3 a0) (real3 a1) b s t - rowMax a0 a1 b s) : ℝ) : EReal) := by
  rw [val_main_v8_apply, val_main_cst_1_apply, OnlineSoftmax.coe_sum]
  have z : FloatOps.ofBits (F := Ideal) .f32 0x00000000#32 = (0 : EReal) := Ideal.ofBits_zero_f32
  rw [z, zero_add]
  refine Finset.sum_congr rfl fun t _ => ?_
  have e : idx_main_v8 (ix2 b s) t = ix3 b s t := funext fun a => by
    match a with | ⟨0, _⟩ => rfl | ⟨1, _⟩ => rfl | ⟨2, _⟩ => rfl
  rw [e, v7_eq a0 a1 h0 h1]

/-- The row sum broadcast along the row. -/
theorem v10_eq (h0 : IsReal a0) (h1 : IsReal a1) (b : Fin 2) (s t : Fin 4096) :
    val_main_v10 (F := Ideal) a0 a1 (ix3 b s t)
      = ((∑ t : Fin 4096, Real.exp (score (real3 a0) (real3 a1) b s t - rowMax a0 a1 b s) : ℝ) : EReal) := by
  rw [val_main_v10_apply, val_main_v9_apply]
  have e : idx_main_v9 (idx_main_v10 (ix3 b s t)) = ix2 b s := funext fun a => by
    match a with | ⟨0, _⟩ => rfl | ⟨1, _⟩ => rfl
  rw [e, v8_eq a0 a1 h0 h1]

/-- A softmax weight: a real number, the row sum being positive. -/
theorem v11_eq (h0 : IsReal a0) (h1 : IsReal a1) (b : Fin 2) (s t : Fin 4096) :
    val_main_v11 (F := Ideal) a0 a1 (ix3 b s t)
      = ((Real.exp (score (real3 a0) (real3 a1) b s t - rowMax a0 a1 b s)
          / (∑ j : Fin 4096, Real.exp (score (real3 a0) (real3 a1) b s j - rowMax a0 a1 b s)) : ℝ) : EReal) := by
  rw [val_main_v11_apply, v7_eq a0 a1 h0 h1, v10_eq a0 a1 h0 h1]
  exact OnlineSoftmax.div_coe_coe _ _
    (OnlineSoftmax.sum_exp_pos Finset.univ ⟨⟨0, by decide⟩, Finset.mem_univ _⟩
      (fun j => score (real3 a0) (real3 a1) b s j) (rowMax a0 a1 b s)).ne'

/-- The weighted sum of the value rows is the specification's context. -/
theorem v12_eq (h0 : IsReal a0) (h1 : IsReal a1) (h2 : IsReal a2) (b : Fin 2) (s : Fin 4096) (k : Fin 512) :
    val_main_v12 (F := Ideal) a0 a1 a2 (ix3 b s k)
      = ((ctx (real3 a0) (real3 a1) (real3 a2) b s k : ℝ) : EReal) := by
  rw [val_main_v12_apply, ctx_eq_sum (real3 a0) (real3 a1) (real3 a2) b s k (rowMax a0 a1 b s), OnlineSoftmax.coe_sum]
  refine Finset.sum_congr rfl fun t _ => ?_
  have el : lidx_main_v12 (ix3 b s k) t = ix3 b s t := funext fun a => by
    match a with | ⟨0, _⟩ => rfl | ⟨1, _⟩ => rfl | ⟨2, _⟩ => rfl
  have er : ridx_main_v12 (ix3 b s k) t = ix3 b t k := funext fun a => by
    match a with | ⟨0, _⟩ => rfl | ⟨1, _⟩ => rfl | ⟨2, _⟩ => rfl
  rw [el, er, v11_eq a0 a1 h0 h1, h2.eq_real3, ← EReal.coe_mul]

/-- Row `r` of the flattened context is query row `r % 4096` of batch `r / 4096`. -/
theorem v13_eq (h0 : IsReal a0) (h1 : IsReal a1) (h2 : IsReal a2) (r : Fin 8192) (n : Fin 512) :
    val_main_v13 (F := Ideal) a0 a1 a2 (ix2 r n)
      = ((ctx (real3 a0) (real3 a1) (real3 a2) (rowBatch r) (rowSeq r) n : ℝ) : EReal) := by
  rw [val_main_v13_apply]
  have e : idx_main_v13 (ix2 r n) = ix3 (rowBatch r) (rowSeq r) n := funext fun a => Fin.ext (by
    have hr : r.val < 8192 := r.isLt
    have hn : n.val < 512 := n.isLt
    match a with
    | ⟨0, _⟩ => show (r.val * 512 + n.val) / 2097152 = r.val / 4096; omega
    | ⟨1, _⟩ => show (r.val * 512 + n.val) / 512 % 4096 = r.val % 4096; omega
    | ⟨2, _⟩ => show (r.val * 512 + n.val) % 512 = n.val; omega)
  rw [e, v12_eq a0 a1 a2 h0 h1 h2]

/-- The projection of a context row. -/
theorem v14_eq (h0 : IsReal a0) (h1 : IsReal a1) (h2 : IsReal a2) (h3 : IsReal a3) (r : Fin 8192) (n : Fin 512) :
    val_main_v14 (F := Ideal) a0 a1 a2 a3 (ix2 r n)
      = ((∑ k : Fin 512, ctx (real3 a0) (real3 a1) (real3 a2) (rowBatch r) (rowSeq r) k * real2 a3 k n : ℝ) : EReal) := by
  rw [val_main_v14_apply, OnlineSoftmax.coe_sum]
  refine Finset.sum_congr rfl fun k _ => ?_
  have el : lidx_main_v14 (ix2 r n) k = ix2 r k := funext fun a => by
    match a with | ⟨0, _⟩ => rfl | ⟨1, _⟩ => rfl
  have er : ridx_main_v14 (ix2 r n) k = ix2 k n := funext fun a => by
    match a with | ⟨0, _⟩ => rfl | ⟨1, _⟩ => rfl
  rw [el, er, v13_eq a0 a1 a2 h0 h1 h2, h3.eq_real2, ← EReal.coe_mul]

/-- The bias row broadcast over the rows. -/
theorem v15_eq (h4 : IsReal a4) (r : Fin 8192) (n : Fin 512) :
    val_main_v15 (F := Ideal) a4 (ix2 r n) = ((real2 a4 0 n : ℝ) : EReal) := by
  rw [val_main_v15_apply]
  have e : idx_main_v15 (ix2 r n) = ix2 (0 : Fin 1) n := funext fun a => by
    match a with | ⟨0, _⟩ => rfl | ⟨1, _⟩ => rfl
  rw [e, h4.eq_real2]

end Stages

end Cert.Attn.Ref

namespace Cert.Attn

open Idealize.ShloMosaic Idealize.ShloMosaic.ValueIdx

/-- The reference's result is the specification's output, entry by entry. -/
theorem ref_value
    (a0 : (⟨Cert.ReferenceIdeal.S2x4096x512, .f32⟩ : BufTy).Contents (Elt Ideal)) (a1 : (⟨Cert.ReferenceIdeal.S2x512x4096, .f32⟩ : BufTy).Contents (Elt Ideal))
    (a2 : (⟨Cert.ReferenceIdeal.S2x4096x512, .f32⟩ : BufTy).Contents (Elt Ideal)) (a3 : (⟨Cert.ReferenceIdeal.S512x512, .f32⟩ : BufTy).Contents (Elt Ideal))
    (a4 : (⟨Cert.ReferenceIdeal.S1x512, .f32⟩ : BufTy).Contents (Elt Ideal))
    (h0 : IsReal a0) (h1 : IsReal a1) (h2 : IsReal a2) (h3 : IsReal a3) (h4 : IsReal a4) :
    Cert.ReferenceIdeal.Read.val_main_v16 (F := Ideal) a0 a1 a2 a3 a4 = outBuf a0 a1 a2 a3 a4 := by
  funext i
  obtain ⟨r, n, rfl⟩ : ∃ (r : Fin 8192) (n : Fin 512), i = ix2 r n := ⟨_, _, eq_ix2 i⟩
  rw [outBuf_apply, Cert.ReferenceIdeal.Read.val_main_v16_apply, Ref.v15_eq a4 h4, Ref.v14_eq a0 a1 a2 a3 h0 h1 h2 h3]
  refine (EReal.coe_add _ _).symm.trans ?_
  exact congrArg (fun z : ℝ => (z : EReal)) (add_comm _ _)

end Cert.Attn
-- ==== Proof.lean ====
/-
  The certificate: a fused flash-attention kernel — scores by a three-pass product, an online softmax over four key
  tiles per query block, the context divided by the row sum, projected and biased — against the reference
  `d5 + reshape (softmax (d1 · d2) · d3) · d4`, equal over the extended reals whenever every input is finite.

  At the extended reals a change of float format is the identity, so the three-pass product is the plain product plus
  two products with `x - x = 0` on real entries. The online softmax keeps, per row, a reference point `m`, the sum
  `l = ∑ exp (s - m)` and the accumulator `acc = ∑ exp (s - m) v` over the keys seen so far, and rescales both by
  `exp (m - m')` when the reference point moves; the quotient `acc / l` does not depend on the reference point, and is the
  reference's softmax-weighted mean, whose own reference point is the row maximum. Both sides are therefore the one
  real-valued specification of `Spec.lean`, coerced entry by entry.

  The three frames are the generated ones (the reference's is its generated run with the result dropped); the ideal
  pass's two rewrites are the rule's own statement; the equivalence sets the kernel's run, re-posted at the
  specification (`KernelValue.lean` over `Invariant.lean`), beside the reference's run, read at the specification
  (`RefValue.lean`); finiteness of the inputs (`Finite.lean`) is what makes every entry a real number.
-/
import proofs.«427413_j53420803228132_3_alg».proof.Defs
import proofs.«427413_j53420803228132_3_alg».proof.Proof.Gen.Kernel
import proofs.«427413_j53420803228132_3_alg».proof.Proof.Gen.Kernel.Frame
import proofs.«427413_j53420803228132_3_alg».proof.Proof.Gen.KernelIdeal
import proofs.«427413_j53420803228132_3_alg».proof.Proof.Gen.KernelIdeal.Frame
import proofs.«427413_j53420803228132_3_alg».proof.Proof.Gen.KernelIdeal.Value
import proofs.«427413_j53420803228132_3_alg».proof.Proof.Gen.ReferenceIdeal
import proofs.«427413_j53420803228132_3_alg».proof.Proof.Gen.ReferenceIdeal.Run
import proofs.«427413_j53420803228132_3_alg».proof.Proof.Gen.ReferenceIdeal.Read
import proofs.«427413_j53420803228132_3_alg».proof.Proof.Gen.Pre_finite_inputs
import proofs.«427413_j53420803228132_3_alg».proof.Proof.Finite
import proofs.«427413_j53420803228132_3_alg».proof.Proof.KernelValue
import proofs.«427413_j53420803228132_3_alg».proof.Proof.RefValue
import Idealize.ShloMosaic.Adequacy
import Idealize.ShloMosaic.Init

noncomputable section

namespace Cert.Proof

open Idealize.ShloMosaic Idealize.ShloMosaic.TcCoe Idealize.SL.Sem

/-- Under the precondition the five argument buffers of every core hold real numbers. -/
theorem argsReal (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Inv.ArgsReal m c :=
  Cert.Attn.isReal_of_finite _ _ _ _ _ (hpre c)

/-- The two idealized programs, from memories agreeing on the arguments, both end at the specification's output. -/
theorem algebraic : Cert.algebraic_KernelIdeal_ReferenceIdeal := by
  intro m ρ m' ρ' hpre hagree
  have hreal := argsReal m hpre
  refine ⟨fun c => Cert.Attn.outBuf (Cert.KernelIdeal.Inv.A0 m c) (Cert.KernelIdeal.Inv.A1 m c) (Cert.KernelIdeal.Inv.A2 m c)
      (Cert.KernelIdeal.Inv.A3 m c) (Cert.KernelIdeal.Inv.A4 m c), Cert.KernelIdeal.Inv.run m ρ hreal, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := hreal c
  rw [Cert.ReferenceIdeal.Read.val_main_v16_eq, (hagree c).1, (hagree c).2.1, (hagree c).2.2.1, (hagree c).2.2.2.1, (hagree c).2.2.2.2]
  exact Cert.Attn.ref_value _ _ _ _ _ r0 r1 r2 r3 r4

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  ⟨IdealRules.truncf_extf.statement _ .f32 .bf16, IdealRules.truncf_extf.statement _ .f32 .bf16⟩,
  algebraic⟩

end Cert.Proof

end
